-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x4 : Shape := ⟨2, ![100000, 4]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x67 : Shape := ⟨2, ![64, 67]⟩
abbrev S67 : Shape := ⟨1, ![67]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x67 : S_.BroadcastsInDim S64x67 (![] : Fin 0 → Fin S64x67.rank)
  reducesTo_S64x67_S_d0_1 : S64x67.ReducesTo [0, 1] S_
  bcast_S_S67 : S_.BroadcastsInDim S67 (![] : Fin 0 → Fin S67.rank)
  reducesTo_S67_S_d0 : S67.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S67 .f32) (main_arg9 : FVec F S64x32 .f32) (main_arg10 : FVec F S32 .f32) (main_arg11 : FVec F S32x1 .f32) (main_arg12 : FVec F S1 .f32) (main_v33 : IVec S_ 1) : IVec S_ 1 :=
  let main_v34 : FVec F S67 .f32 := Host.absf main_arg8
  let main_cst_12 : FVec F S_ .f32 := constant S_ .f32 0x7F800000#32
  let main_v35 : FVec F S67 .f32 := broadcastInDim S67 ![] bcast_S_S67 main_cst_12
  let main_v36 : IVec S67 1 := cmpf .olt main_v34 main_v35
  let main_c_13 : IVec S_ 1 := constantI S_ 1 1#1
  let main_v37 : IVec S_ 1 := (fun x v => Host.reduce IntOp.andi x v reducesTo_S67_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S128x64 .f32) (main_arg6 : FVec F S64 .f32) (main_arg7 : FVec F S64x67 .f32) (main_arg8 : FVec F S67 .f32) (main_arg9 : FVec F S64x32 .f32) (main_arg10 : FVec F S32 .f32) (main_arg11 : FVec F S32x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x67 .f32 := Host.absf main_arg7
  let main_cst_10 : FVec F S_ .f32 := constant S_ .f32 0x7F800000#32
  let main_v30 : FVec F S64x67 .f32 := broadcastInDim S64x67 ![] bcast_S_S64x67 main_cst_10
  let main_v31 : IVec S64x67 1 := cmpf .olt main_v29 main_v30
  let main_c_11 : IVec S_ 1 := constantI S_ 1 1#1
  let main_v32 : IVec S_ 1 := (fun x v => Host.reduce IntOp.andi x v reducesTo_S64x67_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : FVec F S100000x4 .f32) (main_arg2 : IVec S2x1600000 32) (main_arg3 : FVec F S128x128 .f32) (main_arg4 : FVec F S128 .f32) (main_arg5 : FVec F S128x64 .f32) (main_arg6 : FVec F S64 .f32) (main_arg7 : FVec F S64x67 .f32) (main_arg8 : FVec F S67 .f32) (main_arg9 : FVec F S64x32 .f32) (main_arg10 : FVec F S32 .f32) (main_arg11 : FVec F S32x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x4 .f32 := Host.absf main_arg1
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S100000x4 : Shape := ⟨2, ![100000, 4]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x67 : Shape := ⟨2, ![64, 67]⟩
abbrev S67 : Shape := ⟨1, ![67]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x64 : Shape := ⟨2, ![1600000, 64]⟩
abbrev S64x3 : Shape := ⟨2, ![64, 3]⟩
abbrev S64x64 : Shape := ⟨2, ![64, 64]⟩
abbrev S3 : Shape := ⟨1, ![3]⟩
abbrev S1x128 : Shape := ⟨2, ![1, 128]⟩
abbrev S1x64 : Shape := ⟨2, ![1, 64]⟩
abbrev S1x3 : Shape := ⟨2, ![1, 3]⟩
abbrev S1x32 : Shape := ⟨2, ![1, 32]⟩
abbrev S1x1 : Shape := ⟨2, ![1, 1]⟩
abbrev S100000x68 : Shape := ⟨2, ![100000, 68]⟩
abbrev S4000x64 : Shape := ⟨2, ![4000, 64]⟩
abbrev S4000x1 : Shape := ⟨2, ![4000, 1]⟩
abbrev S4000x68 : Shape := ⟨2, ![4000, 68]⟩
abbrev S4000x128 : Shape := ⟨2, ![4000, 128]⟩
abbrev S4000x3 : Shape := ⟨2, ![4000, 3]⟩
abbrev S4000x32 : Shape := ⟨2, ![4000, 32]⟩

abbrev nBuf : Space → Nat
  | .hbm => 97
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S100000x4, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x67, .f32⟩
  | .hbm, ⟨8, _⟩ => ⟨S67, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x4, .f32⟩
  | .hbm, ⟨24, _⟩ => ⟨S100000x4, .f32⟩
  | .hbm, ⟨25, _⟩ => ⟨S100000x4, .f32⟩
  | .hbm, ⟨26, _⟩ => ⟨S_, .f32⟩
  | .hbm, ⟨27, _⟩ => ⟨S100000, .f32⟩
  | .hbm, ⟨28, _⟩ => ⟨S100000x1, .f32⟩
  | .hbm, ⟨29, _⟩ => ⟨S100000x4, .f32⟩
  | .hbm, ⟨30, _⟩ => ⟨S100000x4, .f32⟩
  | .hbm, ⟨31, _⟩ => ⟨S100000x1, .f32⟩
  | .hbm, ⟨32, _⟩ => ⟨S100000, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .i1⟩
  | .hbm, ⟨47, _⟩ => ⟨S_, .f32⟩
  | .hbm, ⟨48, _⟩ => ⟨S100000, .f32⟩
  | .hbm, ⟨49, _⟩ => ⟨S100000, .i1⟩
  | .hbm, ⟨50, _⟩ => ⟨S100000, .i1⟩
  | .hbm, ⟨51, _⟩ => ⟨S100000, .f32⟩
  | .hbm, ⟨52, _⟩ => ⟨S100000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S64x3, .f32⟩
  | .hbm, ⟨87, _⟩ => ⟨S64x64, .f32⟩
  | .hbm, ⟨88, _⟩ => ⟨S3, .f32⟩
  | .hbm, ⟨89, _⟩ => ⟨S64, .f32⟩
  | .hbm, ⟨90, _⟩ => ⟨S1x128, .f32⟩
  | .hbm, ⟨91, _⟩ => ⟨S1x64, .f32⟩
  | .hbm, ⟨92, _⟩ => ⟨S1x3, .f32⟩
  | .hbm, ⟨93, _⟩ => ⟨S1x64, .f32⟩
  | .hbm, ⟨94, _⟩ => ⟨S1x32, .f32⟩
  | .hbm, ⟨95, _⟩ => ⟨S1x1, .f32⟩
  | .hbm, ⟨96, _⟩ => ⟨S100000x68, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x3, .f32⟩
  | .local _ .vmem, ⟨11, _⟩ => ⟨S1x3, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x1, .f32⟩
  | .local _ .vmem, ⟨17, _⟩ => ⟨S1x1, .f32⟩
  | .local _ .vmem, ⟨18, _⟩ => ⟨S4000x68, .f32⟩
  | .local _ .vmem, ⟨19, _⟩ => ⟨S4000x68, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x68 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x4_S100000_d1 : S100000x4.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  slices_S100000x4_S100000x1_0_0 : S100000x4.Slices ![0, 0] S100000x1
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S64x67_S64x3_0_0 : S64x67.Slices ![0, 0] S64x3
  slices_S64x67_S64x64_0_3 : S64x67.Slices ![0, 3] S64x64
  slices_S67_S3_0 : S67.Slices ![0] S3
  slices_S67_S64_3 : S67.Slices ![3] S64
  shapeCasts_S128_S1x128 : S128.ShapeCasts S1x128
  shapeCasts_S64_S1x64 : S64.ShapeCasts S1x64
  shapeCasts_S3_S1x3 : S3.ShapeCasts S1x3
  shapeCasts_S32_S1x32 : S32.ShapeCasts S1x32
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  concatenates_S4000x64_S4000x64_S4000x128_d1 : Shape.Concatenates [S4000x64, S4000x64] S4000x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  concatenates_S4000x3_S4000x64_S4000x1_S4000x68_d1 : Shape.Concatenates [S4000x3, S4000x64, S4000x1] S4000x68 1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x68 : S4000x1.Broadcasts S4000x68
  inb_S4000x68_S4000x68_0_0 : ∀ a, (![0, 0] : Fin 2 → Nat) a + S4000x68.size a ≤ S4000x68.size a
  h_S4000x68 : 0 < S4000x68.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  dot_S4000x64_S64x3_S4000x3_1_0_0_1_n_n_wf : DotDims.WF S4000x64 S64x3 S4000x3 [1] [0] [0] [1] [] []
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x1.size a ≤ S32x1.size a
  hwx0_13 : ∀ i : grid0.Coords, EltTy.bits .f32 = 32 ∨ (Rect.block (s := S32x1) S32x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x68.size a ≤ S100000x68.size a
  hwx0_15 : ∀ i : grid0.Coords, EltTy.bits .f32 = 32 ∨ (Rect.block (s := S100000x68) S4000x68.size (cc0_transform_15 i) (hinb0_15 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x3_S4000x3_1_0_0_1_n_n : DotDims S4000x64 S64x3 S4000x3 where
  lhsContracting := [1]
  rhsContracting := [0]
  lhsNonContracting := [0]
  rhsNonContracting := [1]
  lhsBatch := []
  rhsBatch := []
  wf := dot_S4000x64_S64x3_S4000x3_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v64) S1x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v59) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v65) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v66) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S32x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v67) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v68) S4000x68.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x4 : Shape := ⟨2, ![100000, 4]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x67 : Shape := ⟨2, ![64, 67]⟩
abbrev S67 : Shape := ⟨1, ![67]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1x64 : Shape := ⟨2, ![1, 64]⟩
abbrev S100000x67 : Shape := ⟨2, ![100000, 67]⟩
abbrev S1x67 : Shape := ⟨2, ![1, 67]⟩
abbrev S100000x3 : Shape := ⟨2, ![100000, 3]⟩
abbrev S100000x32 : Shape := ⟨2, ![100000, 32]⟩
abbrev S1x32 : Shape := ⟨2, ![1, 32]⟩
abbrev S1x1 : Shape := ⟨2, ![1, 1]⟩
abbrev S100000x68 : Shape := ⟨2, ![100000, 68]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S100000x4, .f32⟩
  | 2 => ⟨S2x1600000, .i32⟩
  | 3 => ⟨S128x128, .f32⟩
  | 4 => ⟨S128, .f32⟩
  | 5 => ⟨S128x64, .f32⟩
  | 6 => ⟨S64, .f32⟩
  | 7 => ⟨S64x67, .f32⟩
  | 8 => ⟨S67, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x4, .f32⟩
  | 24 => ⟨S100000x4, .f32⟩
  | 25 => ⟨S100000x4, .f32⟩
  | 26 => ⟨S_, .f32⟩
  | 27 => ⟨S100000, .f32⟩
  | 28 => ⟨S100000x1, .f32⟩
  | 29 => ⟨S100000x4, .f32⟩
  | 30 => ⟨S100000x4, .f32⟩
  | 31 => ⟨S100000x1, .f32⟩
  | 32 => ⟨S100000, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S1600000x1, .i32⟩
  | 42 => ⟨S100000, .f32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .i1⟩
  | 50 => ⟨S100000, .i1⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S_, .f32⟩
  | 75 => ⟨S100000x64, .f32⟩
  | 76 => ⟨S1600000x1, .i32⟩
  | 77 => ⟨S100000x64, .f32⟩
  | 78 => ⟨S100000x64, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x67, .f32⟩
  | 101 => ⟨S1x67, .f32⟩
  | 102 => ⟨S100000x67, .f32⟩
  | 103 => ⟨S100000x67, .f32⟩
  | 104 => ⟨S100000x3, .f32⟩
  | 105 => ⟨S100000x64, .f32⟩
  | 106 => ⟨S100000x32, .f32⟩
  | 107 => ⟨S1x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S100000x1, .f32⟩
  | 114 => ⟨S1x1, .f32⟩
  | 115 => ⟨S100000x1, .f32⟩
  | 116 => ⟨S100000x1, .f32⟩
  | 117 => ⟨S100000x1, .f32⟩
  | 118 => ⟨S100000x1, .f32⟩
  | 119 => ⟨S_, .f32⟩
  | 120 => ⟨S100000x1, .f32⟩
  | 121 => ⟨S100000x1, .f32⟩
  | 122 => ⟨S_, .f32⟩
  | 123 => ⟨S100000x1, .f32⟩
  | 124 => ⟨S100000x1, .f32⟩
  | 125 => ⟨S100000x68, .f32⟩
  | 126 => ⟨S100000x1, .f32⟩
  | 127 => ⟨S100000x68, .f32⟩
  | _ => ⟨S100000x64, .f32⟩

abbrev hbmTy0_1 (i : Nat) : BufTy := match i % 128 with
  | 0 => ⟨S100000x68, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call0_cst : Ref sig .tc := ⟨.hbm, 90, rfl⟩
abbrev main_call0_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call1_cst : Ref sig .tc := ⟨.hbm, 97, rfl⟩
abbrev main_call1_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_13 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x4_S100000_d1 : S100000x4.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  slices_S100000x4_S100000x1_0_0 : S100000x4.Slices ![0, 0] S100000x1
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S67_S1x67_1 : S67.BroadcastsInDim S1x67 (![1] : Fin 1 → Fin S1x67.rank)
  bcast_S1x67_S100000x67_0_1 : S1x67.BroadcastsInDim S100000x67 (![0, 1] : Fin 2 → Fin S100000x67.rank)
  slices_S100000x67_S100000x3_0_0 : S100000x67.Slices ![0, 0] S100000x3
  slices_S100000x67_S100000x64_0_3 : S100000x67.Slices ![0, 3] S100000x64
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S100000x3_S100000x64_S100000x1_S100000x68_d1 : Shape.Concatenates [S100000x3, S100000x64, S100000x1] S100000x68 1
  bcast_S100000x1_S100000x68_0_1 : S100000x1.BroadcastsInDim S100000x68 (![0, 1] : Fin 2 → Fin S100000x68.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x67_S100000x67_1_0_0_1_n_n_wf : DotDims.WF S100000x64 S64x67 S100000x67 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x67_S100000x67_1_0_0_1_n_n : DotDims S100000x64 S64x67 S100000x67 where
  lhsContracting := [1]
  rhsContracting := [0]
  lhsNonContracting := [0]
  rhsNonContracting := [1]
  lhsBatch := []
  rhsBatch := []
  wf := dot_S100000x64_S64x67_S100000x67_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The per-node network as ONE function of a node's row, over the extended reals.

  A node with feature row `x`, neighbour-mean row `nm` (64 entries each) and candidate flag `mk` gets 68 outputs:
  three position columns, 64 feature columns and one probability, all multiplied by the flag.
  With `ctx = x ++ nm` (128 entries),
    h1 = relu (ctx · W1 + b1)            (128)
    h2 = relu (h1 · W2 + b2)             (64)
    pos   = h2 · W3p + b3p               (3)      -- the first three columns of the last generator layer
    feats = h2 · W3f + b3f               (64)     -- its remaining 64 columns
    p     = relu (feats · P1 + pb1)      (32)
    prob  = logistic (p · P2 + pb2)      (1),     logistic s = 1 / (1 + exp (-s))
  and the output row is `(pos ++ feats ++ [prob]) * mk`.
  Every product `a · W` is the plain sum over the contracted index; nothing here needs finiteness: the two
  programs compute these sums in the same association, so no law beyond rewriting indices joins them.
-/
import Idealize.ShloMosaic.PureOps.Ideal
import Idealize.ShloMosaic.Lib.ValueIdx

noncomputable section

namespace Cert.NodeNet

open Idealize.ShloMosaic

/-- One output column of an affine layer: `∑ k, a k * W k j + b j`. -/
def affine {K J : ℕ} (a : Fin K → EReal) (W : Fin K → Fin J → EReal) (b : Fin J → EReal) (j : Fin J) : EReal :=
  (∑ k : Fin K, a k * W k j) + b j

/-- The rectifier on the extended reals. -/
def relu (v : EReal) : EReal := max v 0

/-- A node's context row: its own 64 features, then the 64 neighbour means. -/
def ctx (x nm : Fin 64 → EReal) (k : Fin 128) : EReal :=
  if h : k.val < 64 then x ⟨k.val, h⟩ else nm ⟨k.val - 64, by have := k.isLt; omega⟩

/-- The network's parameters, each matrix as a function of (row, column) and each bias of its column. -/
structure Params where
  W1 : Fin 128 → Fin 128 → EReal
  b1 : Fin 128 → EReal
  W2 : Fin 128 → Fin 64 → EReal
  b2 : Fin 64 → EReal
  W3p : Fin 64 → Fin 3 → EReal
  b3p : Fin 3 → EReal
  W3f : Fin 64 → Fin 64 → EReal
  b3f : Fin 64 → EReal
  P1 : Fin 64 → Fin 32 → EReal
  pb1 : Fin 32 → EReal
  P2 : Fin 32 → Fin 1 → EReal
  pb2 : Fin 1 → EReal

variable (w : Params) (x nm : Fin 64 → EReal)

/-- First hidden layer. -/
def h1 : Fin 128 → EReal := fun j => relu (affine (ctx x nm) w.W1 w.b1 j)
/-- Second hidden layer. -/
def h2 : Fin 64 → EReal := fun j => relu (affine (h1 w x nm) w.W2 w.b2 j)
/-- The three position outputs. -/
def pos : Fin 3 → EReal := affine (h2 w x nm) w.W3p w.b3p
/-- The 64 generated features. -/
def feats : Fin 64 → EReal := affine (h2 w x nm) w.W3f w.b3f
/-- The predictor's hidden layer. -/
def pred : Fin 32 → EReal := fun j => relu (affine (feats w x nm) w.P1 w.pb1 j)
/-- The predictor's score (its one column). -/
def score : Fin 1 → EReal := affine (pred w x nm) w.P2 w.pb2
/-- The insertion probability. -/
def prob : EReal := Ideal.logistic (score w x nm 0)

/-- The packed output row before masking: positions, features, probability. -/
def packed (c : Fin 68) : EReal :=
  if h3 : c.val < 3 then pos w x nm ⟨c.val, h3⟩
  else if h67 : c.val < 67 then feats w x nm ⟨c.val - 3, by omega⟩
  else prob w x nm

/-- The node's output row: the packed row times the node's candidate flag. -/
def outRow (mk : EReal) (c : Fin 68) : EReal := packed w x nm c * mk

end Cert.NodeNet

end
-- ==== Proof.LibDense.lean ====
/-
  General lemmas for dense layers on row blocks, generic in the number of rows `M`:
  a plain [M,K] x [K,N] matrix product into a zero accumulator read at an entry as the sum over the
  contracted index; a concatenation of two or three column groups read at an entry as the piece that
  holds the column; a one-row block broadcast down the rows and a one-column block broadcast across
  the columns read at an entry.
-/
import Idealize.ShloMosaic.Lib.ValueIdx
import Idealize.ShloMosaic.Lib.Pipeline.Value
import Idealize.ShloMosaic.PureOps.Ideal.Laws

noncomputable section

namespace Cert.LibDense

open Idealize.ShloMosaic Idealize.ShloMosaic.ValueIdx

/-! ## Matrix products -/

/-- The sum over a one-axis contraction index of a plain product (rows by the contracted axis, the contracted
    axis by columns, as the four coordinate facts say) is the sum over that axis's coordinate `k` of
    `A (p, k) * B (k, j)`. -/
theorem sum_plain {M K N : ℕ} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (A : (⟨2, ![M, K]⟩ : Shape).Idx → EReal) (B : (⟨2, ![K, N]⟩ : Shape).Idx → EReal) (p : Fin M) (j : Fin N) :
    ∑ k : d.contr.Idx, A (d.lhsIdx (ix2 p j) k) * B (d.rhsIdx (ix2 p j) k) = ∑ k : Fin K, A (ix2 p k) * B (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A kernel's plain matrix product into the zero accumulator, read at entry `(p, j)`. -/
theorem matmul_zero_plain {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (prec : Option ContractPrecision)
    (A : FVec Ideal ⟨2, ![M, K]⟩ φ₁) (B : FVec Ideal ⟨2, ![K, N]⟩ φ₂) (p : Fin M) (j : Fin N) :
    FloatOps.matmul d prec A B (constant ⟨2, ![M, N]⟩ .f32 0x00000000#32) (ix2 p j) = ∑ k : Fin K, A (ix2 p k) * B (ix2 k j) := by
  rw [Ideal.matmul_constant_zero_apply]
  exact sum_plain d hr hs hl0 hl1 hr0 hr1 A B p j

/-! ## Column concatenations -/

section Concat
variable {α : Type}

/-- Two column groups side by side: column `k` comes from the first group when `k < A`, else from the second at `k - A`. -/
theorem concat2_cols {M A B C : ℕ} (h : Shape.Concatenates [⟨2, ![M, A]⟩, ⟨2, ![M, B]⟩] ⟨2, ![M, C]⟩ 1)
    (x : (⟨2, ![M, A]⟩ : Shape).Idx → α) (y : (⟨2, ![M, B]⟩ : Shape).Idx → α) (p : Fin M) (k : Fin C) (hC : A + B = C) :
    concatenate ⟨2, ![M, C]⟩ 1 [⟨⟨2, ![M, A]⟩, x⟩, ⟨⟨2, ![M, B]⟩, y⟩] h (ix2 p k)
      = if hk : k.val < A then x (ix2 p ⟨k.val, hk⟩) else y (ix2 p ⟨k.val - A, by have := k.isLt; omega⟩) := by
  by_cases hk : k.val < A
  · rw [dif_pos hk]
    exact concatenate_pair_apply_left 1 x y h (ix2 p k) rfl (ix2 p ⟨k.val, hk⟩) (fun b => match b with
      | ⟨0, _⟩ => rfl
      | ⟨1, _⟩ => rfl)
  · rw [dif_neg hk]
    refine concatenate_pair_apply_right 1 x y h (ix2 p k) rfl rfl (ix2 p ⟨k.val - A, by have := k.isLt; omega⟩) (fun b => match b with
      | ⟨0, _⟩ => fun _ => rfl
      | ⟨1, _⟩ => fun hb => absurd rfl hb) ?_
    show (k.val - A) + A = k.val
    omega

/-- Three column groups of widths `A`, `B`, `D` side by side, read at column `k`. -/
theorem concat3_cols {M A B D C : ℕ} (h : Shape.Concatenates [⟨2, ![M, A]⟩, ⟨2, ![M, B]⟩, ⟨2, ![M, D]⟩] ⟨2, ![M, C]⟩ 1)
    (x : (⟨2, ![M, A]⟩ : Shape).Idx → α) (y : (⟨2, ![M, B]⟩ : Shape).Idx → α) (z : (⟨2, ![M, D]⟩ : Shape).Idx → α)
    (p : Fin M) (k : Fin C) (hC : A + B + D = C) :
    concatenate ⟨2, ![M, C]⟩ 1 [⟨⟨2, ![M, A]⟩, x⟩, ⟨⟨2, ![M, B]⟩, y⟩, ⟨⟨2, ![M, D]⟩, z⟩] h (ix2 p k)
      = if hA : k.val < A then x (ix2 p ⟨k.val, hA⟩)
        else if hB : k.val < A + B then y (ix2 p ⟨k.val - A, by omega⟩)
        else z (ix2 p ⟨k.val - (A + B), by have := k.isLt; omega⟩) := by
  have hkC := k.isLt
  by_cases hA : k.val < A
  · rw [dif_pos hA]
    refine concatenate_apply_piece (t := ⟨2, ![M, C]⟩) 1 [⟨⟨2, ![M, A]⟩, x⟩, ⟨⟨2, ![M, B]⟩, y⟩, ⟨⟨2, ![M, D]⟩, z⟩] h (ix2 p k) 0 (by simp) ⟨2, ![M, A]⟩ x rfl rfl 0 rfl (ix2 p ⟨k.val, hA⟩) (fun b => match b with
      | ⟨0, _⟩ => fun _ => rfl
      | ⟨1, _⟩ => fun hb => absurd rfl hb) ?_
    show 0 + k.val = k.val
    omega
  · rw [dif_neg hA]
    by_cases hB : k.val < A + B
    · rw [dif_pos hB]
      refine concatenate_apply_piece (t := ⟨2, ![M, C]⟩) 1 [⟨⟨2, ![M, A]⟩, x⟩, ⟨⟨2, ![M, B]⟩, y⟩, ⟨⟨2, ![M, D]⟩, z⟩] h (ix2 p k) 1 (by simp) ⟨2, ![M, B]⟩ y rfl rfl A ?_ (ix2 p ⟨k.val - A, by omega⟩) (fun b => match b with
        | ⟨0, _⟩ => fun _ => rfl
        | ⟨1, _⟩ => fun hb => absurd rfl hb) ?_
      · show (if h : (2 : ℕ) = 2 then A else 0) + 0 = A
        simp
      · show A + (k.val - A) = k.val
        omega
    · rw [dif_neg hB]
      refine concatenate_apply_piece (t := ⟨2, ![M, C]⟩) 1 [⟨⟨2, ![M, A]⟩, x⟩, ⟨⟨2, ![M, B]⟩, y⟩, ⟨⟨2, ![M, D]⟩, z⟩] h (ix2 p k) 2 (by simp) ⟨2, ![M, D]⟩ z rfl rfl (A + B) ?_ (ix2 p ⟨k.val - (A + B), by omega⟩) (fun b => match b with
        | ⟨0, _⟩ => fun _ => rfl
        | ⟨1, _⟩ => fun hb => absurd rfl hb) ?_
      · show (if h : (2 : ℕ) = 2 then A else 0) + ((if h : (2 : ℕ) = 2 then B else 0) + 0) = A + B
        simp
      · show A + B + (k.val - (A + B)) = k.val
        omega

end Concat

/-! ## Broadcasts -/

section Bcast
variable {α : Type}

/-- A one-row block broadcast down `M` rows: entry `(p, j)` is the row's entry `j`. -/
theorem bcast_row {M N : ℕ} (h : (⟨2, ![1, N]⟩ : Shape).Broadcasts ⟨2, ![M, N]⟩) (x : (⟨2, ![1, N]⟩ : Shape).Idx → α)
    (p : Fin M) (j : Fin N) : broadcastTo ⟨2, ![M, N]⟩ x h (ix2 p j) = x (ix2 0 j) := by
  refine broadcastTo_apply x h (ix2 p j) (ix2 0 j) (fun a => match a with
    | ⟨0, _⟩ => ?_
    | ⟨1, _⟩ => ?_)
  · show (0 : ℕ) = if (1 : ℕ) = 1 then 0 else p.val
    rw [if_pos rfl]
  · show j.val = if N = 1 then 0 else j.val
    split
    · have := j.isLt; omega
    · rfl

/-- A one-column block broadcast across `N` columns: entry `(p, j)` is the column's entry `p`. -/
theorem bcast_col {M N : ℕ} (h : (⟨2, ![M, 1]⟩ : Shape).Broadcasts ⟨2, ![M, N]⟩) (x : (⟨2, ![M, 1]⟩ : Shape).Idx → α)
    (p : Fin M) (j : Fin N) : broadcastTo ⟨2, ![M, N]⟩ x h (ix2 p j) = x (ix2 p 0) := by
  refine broadcastTo_apply x h (ix2 p j) (ix2 p 0) (fun a => match a with
    | ⟨0, _⟩ => ?_
    | ⟨1, _⟩ => ?_)
  · show p.val = if M = 1 then 0 else p.val
    split
    · have := p.isLt; omega
    · rfl
  · show (0 : ℕ) = if (1 : ℕ) = 1 then 0 else j.val
    rw [if_pos rfl]

end Bcast

end Cert.LibDense

end
-- ==== Proof.KernelRow.lean ====
/-
  The kernel body's stored value at one entry of its 4000-row block is the network's output row
  (Spec.lean) for that block row: every matrix product is the sum over the contracted index, the two
  concatenations pick their piece by the column, and each bias row and the flag column are broadcast.
-/
import proofs.«144319_j85856396247142_1_alg».proof.Proof.Gen.KernelIdeal.Skeleton
import proofs.«144319_j85856396247142_1_alg».proof.Proof.Spec
import proofs.«144319_j85856396247142_1_alg».proof.Proof.LibDense
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## The six matrix products at an entry -/

/-- The first hidden layer's product at entry `(p, j)`: the sum over the 128 contracted columns. -/
theorem mm_h1 {φ₁ φ₂ : FTy} (A : FVec Ideal S4000x128 φ₁) (B : FVec Ideal S128x128 φ₂) (p : Fin 4000) (j : Fin 128) :
    matmul dot_S4000x128_S128x128_S4000x128_1_0_0_1_n_n none A B (constant S4000x128 .f32 0x00000000#32) (ix2 p j) = ∑ k : Fin 128, A (ix2 p k) * B (ix2 k j) :=
  Cert.LibDense.matmul_zero_plain dot_S4000x128_S128x128_S4000x128_1_0_0_1_n_n rfl rfl
    (fun i q => by
      unfold DotDims.lhsIdx
      rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
      rfl)
    (fun i q => dot_S4000x128_S128x128_S4000x128_1_0_0_1_n_n.lhsIdx_val_of_single rfl i q)
    (fun i q => dot_S4000x128_S128x128_S4000x128_1_0_0_1_n_n.rhsIdx_val_of_single rfl i q)
    (fun i q => by
      unfold DotDims.rhsIdx
      rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
      rfl)
    none A B p j

/-- The second hidden layer's product at entry `(p, j)`: the sum over the 128 contracted columns. -/
theorem mm_h2 {φ₁ φ₂ : FTy} (A : FVec Ideal S4000x128 φ₁) (B : FVec Ideal S128x64 φ₂) (p : Fin 4000) (j : Fin 64) :
    matmul dot_S4000x128_S128x64_S4000x64_1_0_0_1_n_n none A B (constant S4000x64 .f32 0x00000000#32) (ix2 p j) = ∑ k : Fin 128, A (ix2 p k) * B (ix2 k j) :=
  Cert.LibDense.matmul_zero_plain dot_S4000x128_S128x64_S4000x64_1_0_0_1_n_n rfl rfl
    (fun i q => by
      unfold DotDims.lhsIdx
      rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
      rfl)
    (fun i q => dot_S4000x128_S128x64_S4000x64_1_0_0_1_n_n.lhsIdx_val_of_single rfl i q)
    (fun i q => dot_S4000x128_S128x64_S4000x64_1_0_0_1_n_n.rhsIdx_val_of_single rfl i q)
    (fun i q => by
      unfold DotDims.rhsIdx
      rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
      rfl)
    none A B p j

/-- The position columns' product at entry `(p, j)`: the sum over the 64 contracted columns. -/
theorem mm_pos {φ₁ φ₂ : FTy} (A : FVec Ideal S4000x64 φ₁) (B : FVec Ideal S64x3 φ₂) (p : Fin 4000) (j : Fin 3) :
    matmul dot_S4000x64_S64x3_S4000x3_1_0_0_1_n_n none A B (constant S4000x3 .f32 0x00000000#32) (ix2 p j) = ∑ k : Fin 64, A (ix2 p k) * B (ix2 k j) :=
  Cert.LibDense.matmul_zero_plain dot_S4000x64_S64x3_S4000x3_1_0_0_1_n_n rfl rfl
    (fun i q => by
      unfold DotDims.lhsIdx
      rw [dif_neg (show ¬(0 : Fin S4000x64.rank) ∈ dot_S4000x64_S64x3_S4000x3_1_0_0_1_n_n.lhsBatch by decide), dif_pos (show (0 : Fin S4000x64.rank) ∈ dot_S4000x64_S64x3_S4000x3_1_0_0_1_n_n.lhsNonContracting by decide)]
      rfl)
    (fun i q => dot_S4000x64_S64x3_S4000x3_1_0_0_1_n_n.lhsIdx_val_of_single rfl i q)
    (fun i q => dot_S4000x64_S64x3_S4000x3_1_0_0_1_n_n.rhsIdx_val_of_single rfl i q)
    (fun i q => by
      unfold DotDims.rhsIdx
      rw [dif_neg (show ¬(1 : Fin S64x3.rank) ∈ dot_S4000x64_S64x3_S4000x3_1_0_0_1_n_n.rhsBatch by decide), dif_pos (show (1 : Fin S64x3.rank) ∈ dot_S4000x64_S64x3_S4000x3_1_0_0_1_n_n.rhsNonContracting by decide)]
      rfl)
    none A B p j

/-- The feature columns' product at entry `(p, j)`: the sum over the 64 contracted columns. -/
theorem mm_feats {φ₁ φ₂ : FTy} (A : FVec Ideal S4000x64 φ₁) (B : FVec Ideal S64x64 φ₂) (p : Fin 4000) (j : Fin 64) :
    matmul dot_S4000x64_S64x64_S4000x64_1_0_0_1_n_n none A B (constant S4000x64 .f32 0x00000000#32) (ix2 p j) = ∑ k : Fin 64, A (ix2 p k) * B (ix2 k j) :=
  Cert.LibDense.matmul_zero_plain dot_S4000x64_S64x64_S4000x64_1_0_0_1_n_n rfl rfl
    (fun i q => by
      unfold DotDims.lhsIdx
      rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
      rfl)
    (fun i q => dot_S4000x64_S64x64_S4000x64_1_0_0_1_n_n.lhsIdx_val_of_single rfl i q)
    (fun i q => dot_S4000x64_S64x64_S4000x64_1_0_0_1_n_n.rhsIdx_val_of_single rfl i q)
    (fun i q => by
      unfold DotDims.rhsIdx
      rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
      rfl)
    none A B p j

/-- The predictor's hidden product at entry `(p, j)`: the sum over the 64 contracted columns. -/
theorem mm_pred {φ₁ φ₂ : FTy} (A : FVec Ideal S4000x64 φ₁) (B : FVec Ideal S64x32 φ₂) (p : Fin 4000) (j : Fin 32) :
    matmul dot_S4000x64_S64x32_S4000x32_1_0_0_1_n_n none A B (constant S4000x32 .f32 0x00000000#32) (ix2 p j) = ∑ k : Fin 64, A (ix2 p k) * B (ix2 k j) :=
  Cert.LibDense.matmul_zero_plain dot_S4000x64_S64x32_S4000x32_1_0_0_1_n_n rfl rfl
    (fun i q => by
      unfold DotDims.lhsIdx
      rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
      rfl)
    (fun i q => dot_S4000x64_S64x32_S4000x32_1_0_0_1_n_n.lhsIdx_val_of_single rfl i q)
    (fun i q => dot_S4000x64_S64x32_S4000x32_1_0_0_1_n_n.rhsIdx_val_of_single rfl i q)
    (fun i q => by
      unfold DotDims.rhsIdx
      rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
      rfl)
    none A B p j

/-- The predictor's score product at entry `(p, j)`: the sum over the 32 contracted columns. -/
theorem mm_score {φ₁ φ₂ : FTy} (A : FVec Ideal S4000x32 φ₁) (B : FVec Ideal S32x1 φ₂) (p : Fin 4000) (j : Fin 1) :
    matmul dot_S4000x32_S32x1_S4000x1_1_0_0_1_n_n none A B (constant S4000x1 .f32 0x00000000#32) (ix2 p j) = ∑ k : Fin 32, A (ix2 p k) * B (ix2 k j) :=
  Cert.LibDense.matmul_zero_plain dot_S4000x32_S32x1_S4000x1_1_0_0_1_n_n rfl rfl
    (fun i q => by
      unfold DotDims.lhsIdx
      rw [dif_neg (show ¬(0 : Fin S4000x32.rank) ∈ dot_S4000x32_S32x1_S4000x1_1_0_0_1_n_n.lhsBatch by decide), dif_pos (show (0 : Fin S4000x32.rank) ∈ dot_S4000x32_S32x1_S4000x1_1_0_0_1_n_n.lhsNonContracting by decide)]
      rfl)
    (fun i q => dot_S4000x32_S32x1_S4000x1_1_0_0_1_n_n.lhsIdx_val_of_single rfl i q)
    (fun i q => dot_S4000x32_S32x1_S4000x1_1_0_0_1_n_n.rhsIdx_val_of_single rfl i q)
    (fun i q => by
      unfold DotDims.rhsIdx
      rw [dif_neg (show ¬(1 : Fin S32x1.rank) ∈ dot_S4000x32_S32x1_S4000x1_1_0_0_1_n_n.rhsBatch by decide), dif_pos (show (1 : Fin S32x1.rank) ∈ dot_S4000x32_S32x1_S4000x1_1_0_0_1_n_n.rhsNonContracting by decide)]
      rfl)
    none A B p j

/-! ## The layout operations at an entry -/

/-- The context block: a block row's 64 features, then its 64 neighbour means. -/
theorem ctx_block (x y : Vec Ideal S4000x64 .f32) (p : Fin 4000) (k : Fin 128) :
    concatenate S4000x128 1 [⟨S4000x64, x⟩, ⟨S4000x64, y⟩] concatenates_S4000x64_S4000x64_S4000x128_d1 (ix2 p k)
      = Cert.NodeNet.ctx (fun k => x (ix2 p k)) (fun k => y (ix2 p k)) k := by
  unfold Cert.NodeNet.ctx
  exact Cert.LibDense.concat2_cols _ x y p k rfl

/-- The packed block: three position columns, 64 feature columns, the probability column. -/
theorem packed_block (a : Vec Ideal S4000x3 .f32) (b : Vec Ideal S4000x64 .f32) (c : Vec Ideal S4000x1 .f32) (p : Fin 4000) (q : Fin 68) :
    concatenate S4000x68 1 [⟨S4000x3, a⟩, ⟨S4000x64, b⟩, ⟨S4000x1, c⟩] concatenates_S4000x3_S4000x64_S4000x1_S4000x68_d1 (ix2 p q)
      = if h3 : q.val < 3 then a (ix2 p ⟨q.val, h3⟩)
        else if h67 : q.val < 67 then b (ix2 p ⟨q.val - 3, by omega⟩)
        else c (ix2 p 0) := by
  rw [Cert.LibDense.concat3_cols _ a b c p q rfl]
  by_cases h3 : q.val < 3
  · rw [dif_pos h3, dif_pos h3]
  · rw [dif_neg h3, dif_neg h3]
    by_cases h67 : q.val < 67
    · rw [dif_pos (show q.val < 3 + 64 from h67), dif_pos h67]
    · rw [dif_neg (show ¬ q.val < 3 + 64 from h67), dif_neg h67]
      exact congrArg c (congrArg (ix2 p) (Fin.ext (by have := q.isLt; show q.val - (3 + 64) = 0; omega)))

/-- The network's parameters as the kernel's blocks hold them: matrices whole, biases as one-row blocks,
    the last generator layer already split into its position and feature columns. -/
def kparams (x3 : Vec Ideal S128x128 .f32) (x4 : Vec Ideal S1x128 .f32) (x5 : Vec Ideal S128x64 .f32) (x6 : Vec Ideal S1x64 .f32)
    (x7 : Vec Ideal S64x3 .f32) (x8 : Vec Ideal S1x3 .f32) (x9 : Vec Ideal S64x64 .f32) (x10 : Vec Ideal S1x64 .f32)
    (x11 : Vec Ideal S64x32 .f32) (x12 : Vec Ideal S1x32 .f32) (x13 : Vec Ideal S32x1 .f32) (x14 : Vec Ideal S1x1 .f32) : Cert.NodeNet.Params where
  W1 k j := x3 (ix2 k j)
  b1 j := x4 (ix2 0 j)
  W2 k j := x5 (ix2 k j)
  b2 j := x6 (ix2 0 j)
  W3p k j := x7 (ix2 k j)
  b3p j := x8 (ix2 0 j)
  W3f k j := x9 (ix2 k j)
  b3f j := x10 (ix2 0 j)
  P1 k j := x11 (ix2 k j)
  pb1 j := x12 (ix2 0 j)
  P2 k j := x13 (ix2 k j)
  pb2 j := x14 (ix2 0 j)

section
variable (x0 x1 : Vec Ideal S4000x64 .f32) (x2 : Vec Ideal S4000x1 .f32)
    (x3 : Vec Ideal S128x128 .f32) (x4 : Vec Ideal S1x128 .f32) (x5 : Vec Ideal S128x64 .f32) (x6 : Vec Ideal S1x64 .f32)
    (x7 : Vec Ideal S64x3 .f32) (x8 : Vec Ideal S1x3 .f32) (x9 : Vec Ideal S64x64 .f32) (x10 : Vec Ideal S1x64 .f32)
    (x11 : Vec Ideal S64x32 .f32) (x12 : Vec Ideal S1x32 .f32) (x13 : Vec Ideal S32x1 .f32) (x14 : Vec Ideal S1x1 .f32)
    (p : Fin 4000)

/-- The second hidden layer of block row `p`. -/
theorem hidden_apply (j : Fin 64) :
    k0_pay2 (F := Ideal) x0 x1 x3 x4 x5 x6 (ix2 p j)
      = Cert.NodeNet.h2 (kparams x3 x4 x5 x6 x7 x8 x9 x10 x11 x12 x13 x14) (fun k => x0 (ix2 p k)) (fun k => x1 (ix2 p k)) j := by
  unfold k0_pay2 Cert.NodeNet.h2 Cert.NodeNet.h1 Cert.NodeNet.affine Cert.NodeNet.relu
  simp only [truncf_apply, maximumf_apply, addf_apply, broadcast_apply, mm_h2, mm_h1, ctx_block,
    Cert.LibDense.bcast_row, shapeCast_self, kparams, Ideal.ofBits_def, Ideal.ofBits_zero_f32]
  simp only [ctx_block x0 x1 p]

/-- The three position columns of block row `p`. -/
theorem pos_apply (j : Fin 3) :
    k0_pay3 (F := Ideal) x0 x1 x3 x4 x5 x6 x7 x8 (ix2 p j)
      = Cert.NodeNet.pos (kparams x3 x4 x5 x6 x7 x8 x9 x10 x11 x12 x13 x14) (fun k => x0 (ix2 p k)) (fun k => x1 (ix2 p k)) j := by
  unfold k0_pay3 Cert.NodeNet.pos Cert.NodeNet.affine
  simp only [truncf_apply, addf_apply, mm_pos, Cert.LibDense.bcast_row, shapeCast_self,
    hidden_apply x0 x1 x3 x4 x5 x6 x7 x8 x9 x10 x11 x12 x13 x14 p, kparams]

/-- The logistic of a block, entry by entry. -/
theorem logistic_apply {s : Shape} {φ : FTy} (a : FVec Ideal s φ) (i : s.Idx) : logistic a i = Ideal.logistic (a i) := rfl

/-- The stored value at block row `p`, column `q`, is the output row of block row `p`. -/
theorem payload_apply (q : Fin 68) :
    k0_pay1 (F := Ideal) (k0_pay2 x0 x1 x3 x4 x5 x6) (k0_pay3 x0 x1 x3 x4 x5 x6 x7 x8) (k0_pay4 x9) x10 x11 x12 x13 x14 x2 (ix2 p q)
      = Cert.NodeNet.outRow (kparams x3 x4 x5 x6 x7 x8 x9 x10 x11 x12 x13 x14)
          (fun k => x0 (ix2 p k)) (fun k => x1 (ix2 p k)) (x2 (ix2 p 0)) q := by
  unfold k0_pay1 k0_pay4 Cert.NodeNet.outRow Cert.NodeNet.packed Cert.NodeNet.prob Cert.NodeNet.score Cert.NodeNet.pred
    Cert.NodeNet.feats Cert.NodeNet.affine Cert.NodeNet.relu
  simp only [mulf_apply, Cert.LibDense.bcast_col, shapeCast_self]
  rw [packed_block]
  simp only [addf_apply, maximumf_apply, truncf_apply, broadcast_apply, logistic_apply,
    mm_feats, mm_pred, mm_score, Cert.LibDense.bcast_row, Cert.LibDense.bcast_col, shapeCast_self,
    hidden_apply x0 x1 x3 x4 x5 x6 x7 x8 x9 x10 x11 x12 x13 x14 p, pos_apply x0 x1 x3 x4 x5 x6 x7 x8 x9 x10 x11 x12 x13 x14 p,
    kparams, Ideal.ofBits_def, Ideal.ofBits_zero_f32]

end

end Cert.KernelIdeal.Row

end
-- ==== Proof.KernelBlocksA.lean ====
/-
  The parameter windows of the kernel region: each has one block, the whole array, at every grid point. (The two hidden layers and the position columns.)
-/
import proofs.«144319_j85856396247142_1_alg».proof.Proof.Gen.KernelIdeal.Frame
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Window 3 sits at block (0, 0) at every point … -/
theorem origin_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- … so reading any array through its block reads the array itself, entry by entry … -/
theorem read_3 (X : S128x128.Idx → EReal) (t : Fin cfg0.N) (k : Fin 128) (j : Fin 128) :
    ((cfg0.win 3).blk t).view.read (Elt Ideal) X (ix2 k j) = X (ix2 k j) := by
  show X (((cfg0.win 3).blk t).view.emb (ix2 k j)) = X (ix2 k j)
  refine congrArg X (funext fun a => Fin.ext ?_)
  obtain ⟨e0, e1⟩ := origin_3 t
  match a with
  | ⟨0, _⟩ => show win0_3.index t (0 : Fin 2) * 128 + 1 * k.val = k.val; omega
  | ⟨1, _⟩ => show win0_3.index t (1 : Fin 2) * 128 + 1 * j.val = j.val; omega
/-- The array window 3 stages. -/
theorem arr_3 : Pipeline.arrRef spec0 3 = main_arg3 := rfl
/-- … and its block at any point is the array the region finds. -/
theorem whole_3 (c : Dev nD) (t : Fin cfg0.N) (k : Fin 128) (j : Fin 128) :
    iblk m c 3 t (ix2 k j) = V m c main_arg3 (ix2 k j) := by
  unfold iblk
  dsimp only [arr_3]
  exact read_3 (V m c main_arg3) t k j

/-- Window 4 sits at block (0, 0) at every point … -/
theorem origin_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- … so reading any array through its block reads the array itself, entry by entry … -/
theorem read_4 (X : S1x128.Idx → EReal) (t : Fin cfg0.N) (k : Fin 1) (j : Fin 128) :
    ((cfg0.win 4).blk t).view.read (Elt Ideal) X (ix2 k j) = X (ix2 k j) := by
  show X (((cfg0.win 4).blk t).view.emb (ix2 k j)) = X (ix2 k j)
  refine congrArg X (funext fun a => Fin.ext ?_)
  obtain ⟨e0, e1⟩ := origin_4 t
  match a with
  | ⟨0, _⟩ => show win0_4.index t (0 : Fin 2) * 1 + 1 * k.val = k.val; omega
  | ⟨1, _⟩ => show win0_4.index t (1 : Fin 2) * 128 + 1 * j.val = j.val; omega
/-- The array window 4 stages. -/
theorem arr_4 : Pipeline.arrRef spec0 4 = main_v62 := rfl
/-- … and its block at any point is the array the region finds. -/
theorem whole_4 (c : Dev nD) (t : Fin cfg0.N) (k : Fin 1) (j : Fin 128) :
    iblk m c 4 t (ix2 k j) = V m c main_v62 (ix2 k j) := by
  unfold iblk
  dsimp only [arr_4]
  exact read_4 (V m c main_v62) t k j

/-- Window 5 sits at block (0, 0) at every point … -/
theorem origin_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- … so reading any array through its block reads the array itself, entry by entry … -/
theorem read_5 (X : S128x64.Idx → EReal) (t : Fin cfg0.N) (k : Fin 128) (j : Fin 64) :
    ((cfg0.win 5).blk t).view.read (Elt Ideal) X (ix2 k j) = X (ix2 k j) := by
  show X (((cfg0.win 5).blk t).view.emb (ix2 k j)) = X (ix2 k j)
  refine congrArg X (funext fun a => Fin.ext ?_)
  obtain ⟨e0, e1⟩ := origin_5 t
  match a with
  | ⟨0, _⟩ => show win0_5.index t (0 : Fin 2) * 128 + 1 * k.val = k.val; omega
  | ⟨1, _⟩ => show win0_5.index t (1 : Fin 2) * 64 + 1 * j.val = j.val; omega
/-- The array window 5 stages. -/
theorem arr_5 : Pipeline.arrRef spec0 5 = main_arg5 := rfl
/-- … and its block at any point is the array the region finds. -/
theorem whole_5 (c : Dev nD) (t : Fin cfg0.N) (k : Fin 128) (j : Fin 64) :
    iblk m c 5 t (ix2 k j) = V m c main_arg5 (ix2 k j) := by
  unfold iblk
  dsimp only [arr_5]
  exact read_5 (V m c main_arg5) t k j

/-- Window 6 sits at block (0, 0) at every point … -/
theorem origin_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- … so reading any array through its block reads the array itself, entry by entry … -/
theorem read_6 (X : S1x64.Idx → EReal) (t : Fin cfg0.N) (k : Fin 1) (j : Fin 64) :
    ((cfg0.win 6).blk t).view.read (Elt Ideal) X (ix2 k j) = X (ix2 k j) := by
  show X (((cfg0.win 6).blk t).view.emb (ix2 k j)) = X (ix2 k j)
  refine congrArg X (funext fun a => Fin.ext ?_)
  obtain ⟨e0, e1⟩ := origin_6 t
  match a with
  | ⟨0, _⟩ => show win0_6.index t (0 : Fin 2) * 1 + 1 * k.val = k.val; omega
  | ⟨1, _⟩ => show win0_6.index t (1 : Fin 2) * 64 + 1 * j.val = j.val; omega
/-- The array window 6 stages. -/
theorem arr_6 : Pipeline.arrRef spec0 6 = main_v63 := rfl
/-- … and its block at any point is the array the region finds. -/
theorem whole_6 (c : Dev nD) (t : Fin cfg0.N) (k : Fin 1) (j : Fin 64) :
    iblk m c 6 t (ix2 k j) = V m c main_v63 (ix2 k j) := by
  unfold iblk
  dsimp only [arr_6]
  exact read_6 (V m c main_v63) t k j

/-- Window 7 sits at block (0, 0) at every point … -/
theorem origin_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- … so reading any array through its block reads the array itself, entry by entry … -/
theorem read_7 (X : S64x3.Idx → EReal) (t : Fin cfg0.N) (k : Fin 64) (j : Fin 3) :
    ((cfg0.win 7).blk t).view.read (Elt Ideal) X (ix2 k j) = X (ix2 k j) := by
  show X (((cfg0.win 7).blk t).view.emb (ix2 k j)) = X (ix2 k j)
  refine congrArg X (funext fun a => Fin.ext ?_)
  obtain ⟨e0, e1⟩ := origin_7 t
  match a with
  | ⟨0, _⟩ => show win0_7.index t (0 : Fin 2) * 64 + 1 * k.val = k.val; omega
  | ⟨1, _⟩ => show win0_7.index t (1 : Fin 2) * 3 + 1 * j.val = j.val; omega
/-- The array window 7 stages. -/
theorem arr_7 : Pipeline.arrRef spec0 7 = main_v58 := rfl
/-- … and its block at any point is the array the region finds. -/
theorem whole_7 (c : Dev nD) (t : Fin cfg0.N) (k : Fin 64) (j : Fin 3) :
    iblk m c 7 t (ix2 k j) = V m c main_v58 (ix2 k j) := by
  unfold iblk
  dsimp only [arr_7]
  exact read_7 (V m c main_v58) t k j

/-- Window 8 sits at block (0, 0) at every point … -/
theorem origin_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- … so reading any array through its block reads the array itself, entry by entry … -/
theorem read_8 (X : S1x3.Idx → EReal) (t : Fin cfg0.N) (k : Fin 1) (j : Fin 3) :
    ((cfg0.win 8).blk t).view.read (Elt Ideal) X (ix2 k j) = X (ix2 k j) := by
  show X (((cfg0.win 8).blk t).view.emb (ix2 k j)) = X (ix2 k j)
  refine congrArg X (funext fun a => Fin.ext ?_)
  obtain ⟨e0, e1⟩ := origin_8 t
  match a with
  | ⟨0, _⟩ => show win0_8.index t (0 : Fin 2) * 1 + 1 * k.val = k.val; omega
  | ⟨1, _⟩ => show win0_8.index t (1 : Fin 2) * 3 + 1 * j.val = j.val; omega
/-- The array window 8 stages. -/
theorem arr_8 : Pipeline.arrRef spec0 8 = main_v64 := rfl
/-- … and its block at any point is the array the region finds. -/
theorem whole_8 (c : Dev nD) (t : Fin cfg0.N) (k : Fin 1) (j : Fin 3) :
    iblk m c 8 t (ix2 k j) = V m c main_v64 (ix2 k j) := by
  unfold iblk
  dsimp only [arr_8]
  exact read_8 (V m c main_v64) t k j

end Cert.KernelIdeal.Blocks

end
-- ==== Proof.KernelBlocksB.lean ====
/-
  The parameter windows of the kernel region: each has one block, the whole array, at every grid point. (The feature columns and the predictor.)
-/
import proofs.«144319_j85856396247142_1_alg».proof.Proof.Gen.KernelIdeal.Frame
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Window 9 sits at block (0, 0) at every point … -/
theorem origin_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- … so reading any array through its block reads the array itself, entry by entry … -/
theorem read_9 (X : S64x64.Idx → EReal) (t : Fin cfg0.N) (k : Fin 64) (j : Fin 64) :
    ((cfg0.win 9).blk t).view.read (Elt Ideal) X (ix2 k j) = X (ix2 k j) := by
  show X (((cfg0.win 9).blk t).view.emb (ix2 k j)) = X (ix2 k j)
  refine congrArg X (funext fun a => Fin.ext ?_)
  obtain ⟨e0, e1⟩ := origin_9 t
  match a with
  | ⟨0, _⟩ => show win0_9.index t (0 : Fin 2) * 64 + 1 * k.val = k.val; omega
  | ⟨1, _⟩ => show win0_9.index t (1 : Fin 2) * 64 + 1 * j.val = j.val; omega
/-- The array window 9 stages. -/
theorem arr_9 : Pipeline.arrRef spec0 9 = main_v59 := rfl
/-- … and its block at any point is the array the region finds. -/
theorem whole_9 (c : Dev nD) (t : Fin cfg0.N) (k : Fin 64) (j : Fin 64) :
    iblk m c 9 t (ix2 k j) = V m c main_v59 (ix2 k j) := by
  unfold iblk
  dsimp only [arr_9]
  exact read_9 (V m c main_v59) t k j

/-- Window 10 sits at block (0, 0) at every point … -/
theorem origin_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- … so reading any array through its block reads the array itself, entry by entry … -/
theorem read_10 (X : S1x64.Idx → EReal) (t : Fin cfg0.N) (k : Fin 1) (j : Fin 64) :
    ((cfg0.win 10).blk t).view.read (Elt Ideal) X (ix2 k j) = X (ix2 k j) := by
  show X (((cfg0.win 10).blk t).view.emb (ix2 k j)) = X (ix2 k j)
  refine congrArg X (funext fun a => Fin.ext ?_)
  obtain ⟨e0, e1⟩ := origin_10 t
  match a with
  | ⟨0, _⟩ => show win0_10.index t (0 : Fin 2) * 1 + 1 * k.val = k.val; omega
  | ⟨1, _⟩ => show win0_10.index t (1 : Fin 2) * 64 + 1 * j.val = j.val; omega
/-- The array window 10 stages. -/
theorem arr_10 : Pipeline.arrRef spec0 10 = main_v65 := rfl
/-- … and its block at any point is the array the region finds. -/
theorem whole_10 (c : Dev nD) (t : Fin cfg0.N) (k : Fin 1) (j : Fin 64) :
    iblk m c 10 t (ix2 k j) = V m c main_v65 (ix2 k j) := by
  unfold iblk
  dsimp only [arr_10]
  exact read_10 (V m c main_v65) t k j

/-- Window 11 sits at block (0, 0) at every point … -/
theorem origin_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
/-- … so reading any array through its block reads the array itself, entry by entry … -/
theorem read_11 (X : S64x32.Idx → EReal) (t : Fin cfg0.N) (k : Fin 64) (j : Fin 32) :
    ((cfg0.win 11).blk t).view.read (Elt Ideal) X (ix2 k j) = X (ix2 k j) := by
  show X (((cfg0.win 11).blk t).view.emb (ix2 k j)) = X (ix2 k j)
  refine congrArg X (funext fun a => Fin.ext ?_)
  obtain ⟨e0, e1⟩ := origin_11 t
  match a with
  | ⟨0, _⟩ => show win0_11.index t (0 : Fin 2) * 64 + 1 * k.val = k.val; omega
  | ⟨1, _⟩ => show win0_11.index t (1 : Fin 2) * 32 + 1 * j.val = j.val; omega
/-- The array window 11 stages. -/
theorem arr_11 : Pipeline.arrRef spec0 11 = main_arg9 := rfl
/-- … and its block at any point is the array the region finds. -/
theorem whole_11 (c : Dev nD) (t : Fin cfg0.N) (k : Fin 64) (j : Fin 32) :
    iblk m c 11 t (ix2 k j) = V m c main_arg9 (ix2 k j) := by
  unfold iblk
  dsimp only [arr_11]
  exact read_11 (V m c main_arg9) t k j

/-- Window 12 sits at block (0, 0) at every point … -/
theorem origin_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
/-- … so reading any array through its block reads the array itself, entry by entry … -/
theorem read_12 (X : S1x32.Idx → EReal) (t : Fin cfg0.N) (k : Fin 1) (j : Fin 32) :
    ((cfg0.win 12).blk t).view.read (Elt Ideal) X (ix2 k j) = X (ix2 k j) := by
  show X (((cfg0.win 12).blk t).view.emb (ix2 k j)) = X (ix2 k j)
  refine congrArg X (funext fun a => Fin.ext ?_)
  obtain ⟨e0, e1⟩ := origin_12 t
  match a with
  | ⟨0, _⟩ => show win0_12.index t (0 : Fin 2) * 1 + 1 * k.val = k.val; omega
  | ⟨1, _⟩ => show win0_12.index t (1 : Fin 2) * 32 + 1 * j.val = j.val; omega
/-- The array window 12 stages. -/
theorem arr_12 : Pipeline.arrRef spec0 12 = main_v66 := rfl
/-- … and its block at any point is the array the region finds. -/
theorem whole_12 (c : Dev nD) (t : Fin cfg0.N) (k : Fin 1) (j : Fin 32) :
    iblk m c 12 t (ix2 k j) = V m c main_v66 (ix2 k j) := by
  unfold iblk
  dsimp only [arr_12]
  exact read_12 (V m c main_v66) t k j

/-- Window 13 sits at block (0, 0) at every point … -/
theorem origin_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
/-- … so reading any array through its block reads the array itself, entry by entry … -/
theorem read_13 (X : S32x1.Idx → EReal) (t : Fin cfg0.N) (k : Fin 32) (j : Fin 1) :
    ((cfg0.win 13).blk t).view.read (Elt Ideal) X (ix2 k j) = X (ix2 k j) := by
  show X (((cfg0.win 13).blk t).view.emb (ix2 k j)) = X (ix2 k j)
  refine congrArg X (funext fun a => Fin.ext ?_)
  obtain ⟨e0, e1⟩ := origin_13 t
  match a with
  | ⟨0, _⟩ => show win0_13.index t (0 : Fin 2) * 32 + 1 * k.val = k.val; omega
  | ⟨1, _⟩ => show win0_13.index t (1 : Fin 2) * 1 + 1 * j.val = j.val; omega
/-- The array window 13 stages. -/
theorem arr_13 : Pipeline.arrRef spec0 13 = main_arg11 := rfl
/-- … and its block at any point is the array the region finds. -/
theorem whole_13 (c : Dev nD) (t : Fin cfg0.N) (k : Fin 32) (j : Fin 1) :
    iblk m c 13 t (ix2 k j) = V m c main_arg11 (ix2 k j) := by
  unfold iblk
  dsimp only [arr_13]
  exact read_13 (V m c main_arg11) t k j

/-- Window 14 sits at block (0, 0) at every point … -/
theorem origin_14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
/-- … so reading any array through its block reads the array itself, entry by entry … -/
theorem read_14 (X : S1x1.Idx → EReal) (t : Fin cfg0.N) (k : Fin 1) (j : Fin 1) :
    ((cfg0.win 14).blk t).view.read (Elt Ideal) X (ix2 k j) = X (ix2 k j) := by
  show X (((cfg0.win 14).blk t).view.emb (ix2 k j)) = X (ix2 k j)
  refine congrArg X (funext fun a => Fin.ext ?_)
  obtain ⟨e0, e1⟩ := origin_14 t
  match a with
  | ⟨0, _⟩ => show win0_14.index t (0 : Fin 2) * 1 + 1 * k.val = k.val; omega
  | ⟨1, _⟩ => show win0_14.index t (1 : Fin 2) * 1 + 1 * j.val = j.val; omega
/-- The array window 14 stages. -/
theorem arr_14 : Pipeline.arrRef spec0 14 = main_v67 := rfl
/-- … and its block at any point is the array the region finds. -/
theorem whole_14 (c : Dev nD) (t : Fin cfg0.N) (k : Fin 1) (j : Fin 1) :
    iblk m c 14 t (ix2 k j) = V m c main_v67 (ix2 k j) := by
  unfold iblk
  dsimp only [arr_14]
  exact read_14 (V m c main_v67) t k j

end Cert.KernelIdeal.Blocks

end
-- ==== Proof.KernelBlocksC.lean ====
/-
  The row windows of the kernel region: at grid point `t` the feature, neighbour-mean and flag blocks are rows
  `4000 t … 4000 t + 3999` of their arrays, and so is the output block.
-/
import proofs.«144319_j85856396247142_1_alg».proof.Proof.Gen.KernelIdeal.Frame
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The row windows (features, neighbour means, flags) and the output sit at row block `t`, column block 0. -/
theorem moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0)

/-- The node a block row stands for: row `p` of point `t`'s block is node `4000 t + p`. -/
def nodeOf (t : Fin cfg0.N) (p : Fin 4000) : Fin 100000 :=
  ⟨t.val * 4000 + p.val, by have ht : t.val < grid0.N := t.isLt; have := p.isLt; have := N_0; omega⟩

/-- Reading any array through window 0's block at point `t`, row `p`, reads the array's row `4000 t + p`. -/
theorem read_0 (X : S100000x64.Idx → EReal) (t : Fin cfg0.N) (p : Fin 4000) (k : Fin 64) :
    ((cfg0.win 0).blk t).view.read (Elt Ideal) X (ix2 p k) = X (ix2 (nodeOf t p) k) := by
  show X (((cfg0.win 0).blk t).view.emb (ix2 p k)) = X (ix2 (nodeOf t p) k)
  refine congrArg X (funext fun a => Fin.ext ?_)
  obtain ⟨e0, e1, -⟩ := moving t
  match a with
  | ⟨0, _⟩ => show win0_0.index t (0 : Fin 2) * 4000 + 1 * p.val = t.val * 4000 + p.val; omega
  | ⟨1, _⟩ => show win0_0.index t (1 : Fin 2) * 64 + 1 * k.val = k.val; omega
/-- The array window 0 stages. -/
theorem arr_0 : Pipeline.arrRef spec0 0 = main_arg0 := rfl
/-- Row `p` of the feature block at point `t` is node `4000 t + p`'s feature row. -/
theorem features_row (c : Dev nD) (t : Fin cfg0.N) (p : Fin 4000) (k : Fin 64) :
    iblk m c 0 t (ix2 p k) = V m c main_arg0 (ix2 (nodeOf t p) k) := by
  unfold iblk
  dsimp only [arr_0]
  exact read_0 (V m c main_arg0) t p k

/-- Reading any array through window 1's block at point `t`, row `p`, reads the array's row `4000 t + p`. -/
theorem read_1 (X : S100000x64.Idx → EReal) (t : Fin cfg0.N) (p : Fin 4000) (k : Fin 64) :
    ((cfg0.win 1).blk t).view.read (Elt Ideal) X (ix2 p k) = X (ix2 (nodeOf t p) k) := by
  show X (((cfg0.win 1).blk t).view.emb (ix2 p k)) = X (ix2 (nodeOf t p) k)
  refine congrArg X (funext fun a => Fin.ext ?_)
  obtain ⟨-, -, e0, e1, -⟩ := moving t
  match a with
  | ⟨0, _⟩ => show win0_1.index t (0 : Fin 2) * 4000 + 1 * p.val = t.val * 4000 + p.val; omega
  | ⟨1, _⟩ => show win0_1.index t (1 : Fin 2) * 64 + 1 * k.val = k.val; omega
/-- The array window 1 stages. -/
theorem arr_1 : Pipeline.arrRef spec0 1 = main_v57 := rfl
/-- Row `p` of the neighbour-mean block at point `t` is node `4000 t + p`'s row of means. -/
theorem means_row (c : Dev nD) (t : Fin cfg0.N) (p : Fin 4000) (k : Fin 64) :
    iblk m c 1 t (ix2 p k) = V m c main_v57 (ix2 (nodeOf t p) k) := by
  unfold iblk
  dsimp only [arr_1]
  exact read_1 (V m c main_v57) t p k

/-- Reading any array through window 2's block at point `t`, row `p`, reads the array's row `4000 t + p`. -/
theorem read_2 (X : S100000x1.Idx → EReal) (t : Fin cfg0.N) (p : Fin 4000) (k : Fin 1) :
    ((cfg0.win 2).blk t).view.read (Elt Ideal) X (ix2 p k) = X (ix2 (nodeOf t p) k) := by
  show X (((cfg0.win 2).blk t).view.emb (ix2 p k)) = X (ix2 (nodeOf t p) k)
  refine congrArg X (funext fun a => Fin.ext ?_)
  obtain ⟨-, -, -, -, e0, e1, -⟩ := moving t
  match a with
  | ⟨0, _⟩ => show win0_2.index t (0 : Fin 2) * 4000 + 1 * p.val = t.val * 4000 + p.val; omega
  | ⟨1, _⟩ => show win0_2.index t (1 : Fin 2) * 1 + 1 * k.val = k.val; omega
/-- The array window 2 stages. -/
theorem arr_2 : Pipeline.arrRef spec0 2 = main_v31 := rfl
/-- Entry `p` of the flag block at point `t` is node `4000 t + p`'s flag. -/
theorem flag_row (c : Dev nD) (t : Fin cfg0.N) (p : Fin 4000) (k : Fin 1) :
    iblk m c 2 t (ix2 p k) = V m c main_v31 (ix2 (nodeOf t p) k) := by
  unfold iblk
  dsimp only [arr_2]
  exact read_2 (V m c main_v31) t p k

end Cert.KernelIdeal.Blocks

end
-- ==== Proof.KernelValue.lean ====
/-
  From the blocks to the whole result: grid point `t` handles the 4000 nodes `4000 t … 4000 t + 3999`; it reads
  their feature rows, neighbour-mean rows and flags, reads every parameter block whole, and writes their 4000
  output rows. The 25 points' row ranges tile the 100000 nodes, so the result array holds every node's output row.
-/
import proofs.«144319_j85856396247142_1_alg».proof.Proof.Gen.KernelIdeal.Value
import proofs.«144319_j85856396247142_1_alg».proof.Proof.KernelRow
import proofs.«144319_j85856396247142_1_alg».proof.Proof.KernelBlocksA
import proofs.«144319_j85856396247142_1_alg».proof.Proof.KernelBlocksB
import proofs.«144319_j85856396247142_1_alg».proof.Proof.KernelBlocksC
import proofs.«144319_j85856396247142_1_alg».proof.Proof.Spec
import Idealize.ShloMosaic.Lib.ValueIdx
import Idealize.ShloMosaic.Lib.Pipeline.Value

set_option maxRecDepth 16384

noncomputable section

namespace Cert.KernelIdeal.Whole

open Cert.KernelIdeal Cert.KernelIdeal.Gen Cert.KernelIdeal.Blocks Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The parameters as the region finds them on core `c`. -/
def params (c : Dev nD) : Cert.NodeNet.Params :=
  Row.kparams (V m c main_arg3) (V m c main_v62) (V m c main_arg5) (V m c main_v63) (V m c main_v58) (V m c main_v64)
    (V m c main_v59) (V m c main_v65) (V m c main_arg9) (V m c main_v66) (V m c main_arg11) (V m c main_v67)

/-- Node `r`'s output row, from its feature row, its neighbour-mean row and its flag as the region finds them. -/
def nodeRow (c : Dev nD) (r : Fin 100000) (q : Fin 68) : EReal :=
  Cert.NodeNet.outRow (params m c) (fun k => V m c main_arg0 (ix2 r k)) (fun k => V m c main_v57 (ix2 r k))
    (V m c main_v31 (ix2 r 0)) q

/-- The whole result: entry `(r, q)` is node `r`'s output row at column `q`. -/
def result (c : Dev nD) : S100000x68.Idx → EReal :=
  fun i => nodeRow m c ⟨(i 0).val, (i 0).isLt⟩ ⟨(i 1).val, (i 1).isLt⟩

theorem zero_offsets : (![0, 0] : Fin 2 → Nat) = fun _ => 0 := funext fun a => by fin_cases a <;> rfl

/-- The parameter blocks at any point are the parameters. -/
theorem params_block (c : Dev nD) (t : Fin cfg0.N) :
    Row.kparams (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) = params m c := by
  unfold params Row.kparams
  rw [Cert.NodeNet.Params.mk.injEq]
  exact ⟨funext fun k => funext fun j => whole_3 m c t k j, funext fun j => whole_4 m c t 0 j,
    funext fun k => funext fun j => whole_5 m c t k j, funext fun j => whole_6 m c t 0 j,
    funext fun k => funext fun j => whole_7 m c t k j, funext fun j => whole_8 m c t 0 j,
    funext fun k => funext fun j => whole_9 m c t k j, funext fun j => whole_10 m c t 0 j,
    funext fun k => funext fun j => whole_11 m c t k j, funext fun j => whole_12 m c t 0 j,
    funext fun k => funext fun j => whole_13 m c t k j, funext fun j => whole_14 m c t 0 j⟩

/-! ## What a point writes back -/

/-- Point `t` writes back block `t` of the whole result. -/
theorem written (c : Dev nD) (t : Fin cfg0.N) :
    (dats m 0 c).flushed 15 t = ((cfg0.win 15).blk t).view.read (Elt Ideal) (result m c) := by
  rw [Value.flushed15]
  unfold out0_15
  rw [View.canon_unit_zero zero_offsets]
  simp only [View.ld_unit_zero (S := S4000x64) zero_offsets, View.ld_unit_zero (S := S4000x1) zero_offsets,
    View.ld_unit_zero (S := S128x128) zero_offsets, View.ld_unit_zero (S := S1x128) zero_offsets,
    View.ld_unit_zero (S := S128x64) zero_offsets, View.ld_unit_zero (S := S1x64) zero_offsets,
    View.ld_unit_zero (S := S64x3) zero_offsets, View.ld_unit_zero (S := S1x3) zero_offsets,
    View.ld_unit_zero (S := S64x64) zero_offsets, View.ld_unit_zero (S := S64x32) zero_offsets,
    View.ld_unit_zero (S := S1x32) zero_offsets, View.ld_unit_zero (S := S32x1) zero_offsets,
    View.ld_unit_zero (S := S1x1) zero_offsets]
  funext j
  obtain ⟨p, q, rfl⟩ : ∃ (p : Fin 4000) (q : Fin 68), j = ix2 p q := ⟨j 0, j 1, eq_ix2 j⟩
  show k0_pay1 (F := Ideal) (k0_pay2 (iblk m c 0 t) (iblk m c 1 t) (iblk m c 3 t) (iblk m c 4 t) (iblk m c 5 t) (iblk m c 6 t))
      (k0_pay3 (iblk m c 0 t) (iblk m c 1 t) (iblk m c 3 t) (iblk m c 4 t) (iblk m c 5 t) (iblk m c 6 t) (iblk m c 7 t) (iblk m c 8 t))
      (k0_pay4 (iblk m c 9 t)) (iblk m c 10 t) (iblk m c 11 t) (iblk m c 12 t) (iblk m c 13 t) (iblk m c 14 t) (iblk m c 2 t) (ix2 p q)
    = result m c (((cfg0.win 15).blk t).view.emb (ix2 p q))
  refine (Row.payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p q).trans ?_
  rw [params_block m c t, flag_row m c t p 0]
  simp only [features_row m c t p, means_row m c t p]
  obtain ⟨-, -, -, -, -, -, e0, e1⟩ := moving t
  have hr : (⟨((((cfg0.win 15).blk t).view.emb (ix2 p q)) 0).val, ((((cfg0.win 15).blk t).view.emb (ix2 p q)) 0).isLt⟩ : Fin 100000) = nodeOf t p :=
    Fin.ext (by show win0_15.index t (0 : Fin 2) * 4000 + 1 * p.val = t.val * 4000 + p.val; omega)
  have hq : (⟨((((cfg0.win 15).blk t).view.emb (ix2 p q)) 1).val, ((((cfg0.win 15).blk t).view.emb (ix2 p q)) 1).isLt⟩ : Fin 68) = q :=
    Fin.ext (by show win0_15.index t (1 : Fin 2) * 68 + 1 * q.val = q.val; omega)
  show _ = nodeRow m c _ _
  rw [hr, hq]
  rfl

/-! ## The blocks tile the result -/

/-- An index of the result is in point `t`'s block iff each coordinate is in the block's range on its axis. -/
theorem mem_block (t : Fin cfg0.N) (i : S100000x68.Idx) :
    i ∈ ((cfg0.win 15).blk t).view.set ↔ ∀ a : Fin 2, win0_15.index t a * S4000x68.size a ≤ (i a).val ∧ (i a).val < win0_15.index t a * S4000x68.size a + S4000x68.size a := by
  show i ∈ ((View.whole main_v68).slice (win0_15.rect t)).set ↔ _
  rw [View.set_slice_whole, Rect.mem_set_unit]
  exact Iff.rfl

/-- Every entry of the result lies in the block of the point its row falls to. -/
theorem tiled (i : S100000x68.Idx) :
    ∃ t : Fin cfg0.N, (cfg0.win 15).flush t = true ∧ i ∈ ((cfg0.win 15).blk t).view.set := by
  have hi0 : (i 0).val < 100000 := (i 0).isLt
  have hi1 : (i 1).val < 68 := (i 1).isLt
  have hN := N_0
  let t : Fin cfg0.N := ⟨(i 0).val / 4000, by show (i 0).val / 4000 < grid0.N; omega⟩
  obtain ⟨-, -, -, -, -, -, e0, e1⟩ := moving t
  have ht : t.val = (i 0).val / 4000 := rfl
  refine ⟨t, flush0_15 t, ?_⟩
  rw [mem_block]
  intro a
  match a with
  | ⟨0, _⟩ => show win0_15.index t (0 : Fin 2) * 4000 ≤ (i 0).val ∧ (i 0).val < win0_15.index t (0 : Fin 2) * 4000 + 4000; omega
  | ⟨1, _⟩ => show win0_15.index t (1 : Fin 2) * 68 ≤ (i 1).val ∧ (i 1).val < win0_15.index t (1 : Fin 2) * 68 + 68; omega

/-- After the run the result array holds every node's output row. -/
theorem final (c : Dev nD) : (dats m 0 c).arrAt 15 cfg0.N = result m c :=
  (dats m 0 c).arrAt_eq_of_cover 15 (result m c) (fun t _ => written m c t) tiled

/-- The kernel program's run, with the result array named. -/
theorem run : θ_run defs (onTc (τ := τ) (main (F := Ideal))) ⟨m, fun _ => 0, ρ⟩ fun r => ∀ c : Dev nD,
      r.2.mem ((c : Thread nD τ).loc main_v68) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Whole

end
-- ==== Proof.RefRow.lean ====
/-
  The reference's result at one entry (row `r`, column `q`) is the network's output row (Spec.lean) for
  node `r`: its feature row and the row of its neighbour means go through the three generator layers and
  the predictor, the 68 columns are packed as positions, features, probability, and the row is multiplied
  by the node's candidate flag. The neighbour means and the flags are kept as the stages that compute them
  (the same host operations open both programs); only what follows them is opened here.
-/
import proofs.«144319_j85856396247142_1_alg».proof.Proof.RefReadPatched
import proofs.«144319_j85856396247142_1_alg».proof.Proof.Spec
import proofs.«144319_j85856396247142_1_alg».proof.Proof.LibDense
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.Row

open Cert.ReferenceIdeal Cert.ReferenceIdeal.ReadP Idealize.ShloMosaic Idealize.ShloMosaic.ValueIdx

/-- The network's parameters as the reference's arguments hold them: the last generator layer whole
    (its first three columns are the positions, the remaining 64 the features), every bias a vector. -/
def rparams (x3 : S128x128.Idx → EReal) (x4 : S128.Idx → EReal) (x5 : S128x64.Idx → EReal) (x6 : S64.Idx → EReal)
    (x7 : S64x67.Idx → EReal) (x8 : S67.Idx → EReal) (x9 : S64x32.Idx → EReal) (x10 : S32.Idx → EReal)
    (x11 : S32x1.Idx → EReal) (x12 : S1.Idx → EReal) : Cert.NodeNet.Params where
  W1 k j := x3 (ix2 k j)
  b1 j := x4 (ix1 j)
  W2 k j := x5 (ix2 k j)
  b2 j := x6 (ix1 j)
  W3p k j := x7 (ix2 k ⟨j.val, by have := j.isLt; omega⟩)
  b3p j := x8 (ix1 ⟨j.val, by have := j.isLt; omega⟩)
  W3f k j := x7 (ix2 k ⟨j.val + 3, by have := j.isLt; omega⟩)
  b3f j := x8 (ix1 ⟨j.val + 3, by have := j.isLt; omega⟩)
  P1 k j := x9 (ix2 k j)
  pb1 j := x10 (ix1 j)
  P2 k j := x11 (ix2 k j)
  pb2 j := x12 (ix1 j)

section Layers

variable (x0 : S100000x64.Idx → EReal) (x2 : (⟨S2x1600000, .i32⟩ : BufTy).Contents (Elt Ideal))
    (x3 : S128x128.Idx → EReal) (x4 : S128.Idx → EReal) (x5 : S128x64.Idx → EReal) (x6 : S64.Idx → EReal)
    (x7 : S64x67.Idx → EReal) (x8 : S67.Idx → EReal) (x9 : S64x32.Idx → EReal) (x10 : S32.Idx → EReal)
    (x11 : S32x1.Idx → EReal) (x12 : S1.Idx → EReal) (r : Fin 100000)

local notation "W" => rparams x3 x4 x5 x6 x7 x8 x9 x10 x11 x12
local notation "xr" => (fun k : Fin 64 => x0 (ix2 r k))
local notation "nr" => (fun k : Fin 64 => val_main_v56 (F := Ideal) x0 x2 (ix2 r k))

/-- Row `r` of the joined array is the node's context row: its 64 features, then its 64 neighbour means. -/
theorem ctx_apply (k : Fin 128) :
    val_main_v57 (F := Ideal) x0 x2 (ix2 r k) = Cert.NodeNet.ctx xr nr k := by
  unfold val_main_v57 Cert.NodeNet.ctx
  exact Cert.LibDense.concat2_cols (M := 100000) (A := 64) (B := 64) (C := 128)
    Gen.concatenates_S100000x64_S100000x64_S100000x128_d1 x0 (val_main_v56 (F := Ideal) x0 x2) r k rfl

/-- The first hidden layer at `(r, j)`: the rectified affine image of the context row. -/
theorem h1_apply (j : Fin 128) :
    val_main_v62 (F := Ideal) x0 x2 x3 x4 (ix2 r j) = Cert.NodeNet.h1 W xr nr j := by
  have el : ∀ k : Fin 128, lidx_main_v58 (ix2 r j) k = ix2 r k := fun k => funext fun a => Fin.ext (by
    match a with
    | ⟨0, _⟩ => rfl
    | ⟨1, _⟩ => rfl)
  have er : ∀ k : Fin 128, ridx_main_v58 (ix2 r j) k = ix2 k j := fun k => funext fun a => Fin.ext (by
    match a with
    | ⟨0, _⟩ => rfl
    | ⟨1, _⟩ => rfl)
  have eb : idx_main_v59 (idx_main_v60 (ix2 r j)) = ix1 j := funext fun a => Fin.ext (by
    match a with
    | ⟨0, _⟩ => rfl)
  rw [val_main_v62_apply, val_main_v61_apply, val_main_v58_apply, val_main_v60_apply, val_main_v59_apply,
    val_main_call0_v0_apply, val_main_call0_cst_apply, eb]
  simp only [Ideal.maximumf_def, Ideal.addf_def, Ideal.ofBits_def, Ideal.ofBits_zero_f32, el, er, ctx_apply]
  rfl

/-- The second hidden layer at `(r, j)`. -/
theorem h2_apply (j : Fin 64) :
    val_main_v67 (F := Ideal) x0 x2 x3 x4 x5 x6 (ix2 r j) = Cert.NodeNet.h2 W xr nr j := by
  have el : ∀ k : Fin 128, lidx_main_v63 (ix2 r j) k = ix2 r k := fun k => funext fun a => Fin.ext (by
    match a with
    | ⟨0, _⟩ => rfl
    | ⟨1, _⟩ => rfl)
  have er : ∀ k : Fin 128, ridx_main_v63 (ix2 r j) k = ix2 k j := fun k => funext fun a => Fin.ext (by
    match a with
    | ⟨0, _⟩ => rfl
    | ⟨1, _⟩ => rfl)
  have eb : idx_main_v64 (idx_main_v65 (ix2 r j)) = ix1 j := funext fun a => Fin.ext (by
    match a with
    | ⟨0, _⟩ => rfl)
  rw [val_main_v67_apply, val_main_v66_apply, val_main_v63_apply, val_main_v65_apply, val_main_v64_apply,
    val_main_call1_v0_apply, val_main_call1_cst_apply, eb]
  simp only [Ideal.maximumf_def, Ideal.addf_def, Ideal.ofBits_def, Ideal.ofBits_zero_f32, el, er, h1_apply x0 x2 x3 x4 x5 x6 x7 x8 x9 x10 x11 x12 r]
  rfl

/-- The last generator layer at `(r, j)`, all 67 columns: the affine image of the second hidden layer. -/
theorem gen3_apply (j : Fin 67) :
    val_main_v71 (F := Ideal) x0 x2 x3 x4 x5 x6 x7 x8 (ix2 r j)
      = (∑ k : Fin 64, Cert.NodeNet.h2 W xr nr k * x7 (ix2 k j)) + x8 (ix1 j) := by
  have el : ∀ k : Fin 64, lidx_main_v68 (ix2 r j) k = ix2 r k := fun k => funext fun a => Fin.ext (by
    match a with
    | ⟨0, _⟩ => rfl
    | ⟨1, _⟩ => rfl)
  have er : ∀ k : Fin 64, ridx_main_v68 (ix2 r j) k = ix2 k j := fun k => funext fun a => Fin.ext (by
    match a with
    | ⟨0, _⟩ => rfl
    | ⟨1, _⟩ => rfl)
  have eb : idx_main_v69 (idx_main_v70 (ix2 r j)) = ix1 j := funext fun a => Fin.ext (by
    match a with
    | ⟨0, _⟩ => rfl)
  rw [val_main_v71_apply, val_main_v68_apply, val_main_v70_apply, val_main_v69_apply, eb]
  simp only [Ideal.addf_def, el, er, h2_apply x0 x2 x3 x4 x5 x6 x7 x8 x9 x10 x11 x12 r]

/-- The three position columns are the first three columns of the last generator layer. -/
theorem pos_apply (c : Fin 3) :
    val_main_v72 (F := Ideal) x0 x2 x3 x4 x5 x6 x7 x8 (ix2 r c) = Cert.NodeNet.pos W xr nr c := by
  have e : idx_main_v72 (ix2 r c) = ix2 r ⟨c.val, by have := c.isLt; omega⟩ := funext fun a => Fin.ext (by
    match a with
    | ⟨0, _⟩ => rfl
    | ⟨1, _⟩ => rfl)
  rw [val_main_v72_apply, e, gen3_apply x0 x2 x3 x4 x5 x6 x7 x8 x9 x10 x11 x12 r]
  rfl

/-- The 64 generated features are columns 3 to 66 of the last generator layer. -/
theorem feats_apply (c : Fin 64) :
    val_main_v73 (F := Ideal) x0 x2 x3 x4 x5 x6 x7 x8 (ix2 r c) = Cert.NodeNet.feats W xr nr c := by
  have e : idx_main_v73 (ix2 r c) = ix2 r ⟨c.val + 3, by have := c.isLt; omega⟩ := funext fun a => Fin.ext (by
    match a with
    | ⟨0, _⟩ => rfl
    | ⟨1, _⟩ => show 3 + c.val = c.val + 3; omega)
  rw [val_main_v73_apply, e, gen3_apply x0 x2 x3 x4 x5 x6 x7 x8 x9 x10 x11 x12 r]
  rfl

/-- The predictor's hidden layer at `(r, j)`. -/
theorem pred_apply (j : Fin 32) :
    val_main_v78 (F := Ideal) x0 x2 x3 x4 x5 x6 x7 x8 x9 x10 (ix2 r j) = Cert.NodeNet.pred W xr nr j := by
  have el : ∀ k : Fin 64, lidx_main_v74 (ix2 r j) k = ix2 r k := fun k => funext fun a => Fin.ext (by
    match a with
    | ⟨0, _⟩ => rfl
    | ⟨1, _⟩ => rfl)
  have er : ∀ k : Fin 64, ridx_main_v74 (ix2 r j) k = ix2 k j := fun k => funext fun a => Fin.ext (by
    match a with
    | ⟨0, _⟩ => rfl
    | ⟨1, _⟩ => rfl)
  have eb : idx_main_v75 (idx_main_v76 (ix2 r j)) = ix1 j := funext fun a => Fin.ext (by
    match a with
    | ⟨0, _⟩ => rfl)
  rw [val_main_v78_apply, val_main_v77_apply, val_main_v74_apply, val_main_v76_apply, val_main_v75_apply,
    val_main_call2_v0_apply, val_main_call2_cst_apply, eb]
  simp only [Ideal.maximumf_def, Ideal.addf_def, Ideal.ofBits_def, Ideal.ofBits_zero_f32, el, er, feats_apply x0 x2 x3 x4 x5 x6 x7 x8 x9 x10 x11 x12 r]
  rfl

/-- The predictor's score (one column). -/
theorem score_apply (c : Fin 1) :
    val_main_v82 (F := Ideal) x0 x2 x3 x4 x5 x6 x7 x8 x9 x10 x11 x12 (ix2 r c) = Cert.NodeNet.score W xr nr c := by
  have el : ∀ k : Fin 32, lidx_main_v79 (ix2 r c) k = ix2 r k := fun k => funext fun a => Fin.ext (by
    match a with
    | ⟨0, _⟩ => rfl
    | ⟨1, _⟩ => rfl)
  have er : ∀ k : Fin 32, ridx_main_v79 (ix2 r c) k = ix2 k c := fun k => funext fun a => Fin.ext (by
    match a with
    | ⟨0, _⟩ => rfl
    | ⟨1, _⟩ => rfl)
  have eb : idx_main_v80 (idx_main_v81 (ix2 r c)) = ix1 c := funext fun a => Fin.ext (by
    match a with
    | ⟨0, _⟩ => show 0 = c.val; have := c.isLt; omega)
  rw [val_main_v82_apply, val_main_v79_apply, val_main_v81_apply, val_main_v80_apply, eb]
  simp only [Ideal.addf_def, el, er, pred_apply x0 x2 x3 x4 x5 x6 x7 x8 x9 x10 x11 x12 r]
  rfl

/-- The insertion probability: the reference's `1 / (1 + exp (-s))` is the logistic of the score. -/
theorem prob_apply (c : Fin 1) :
    val_main_v88 (F := Ideal) x0 x2 x3 x4 x5 x6 x7 x8 x9 x10 x11 x12 (ix2 r c) = Cert.NodeNet.prob W xr nr := by
  obtain rfl : c = 0 := Subsingleton.elim _ _
  rw [val_main_v88_apply, val_main_v87_apply, val_main_cst_14_apply, val_main_v86_apply, val_main_v85_apply,
    val_main_cst_13_apply, val_main_v84_apply, val_main_v83_apply, score_apply x0 x2 x3 x4 x5 x6 x7 x8 x9 x10 x11 x12 r]
  simp only [Ideal.hostDivf_def, Ideal.addf_def, Ideal.hostUnary_exp_def, Ideal.hostNegf_def, Ideal.negf_def,
    Ideal.ofBits_def, Ideal.ofBits_one_f32]
  rfl

/-- The packed row at column `q`: positions, features, probability. -/
theorem packed_apply (q : Fin 68) :
    val_main_v89 (F := Ideal) x0 x2 x3 x4 x5 x6 x7 x8 x9 x10 x11 x12 (ix2 r q) = Cert.NodeNet.packed W xr nr q := by
  unfold val_main_v89
  refine (Cert.LibDense.concat3_cols (M := 100000) (A := 3) (B := 64) (D := 1) (C := 68)
    Gen.concatenates_S100000x3_S100000x64_S100000x1_S100000x68_d1
    (val_main_v72 (F := Ideal) x0 x2 x3 x4 x5 x6 x7 x8) (val_main_v73 (F := Ideal) x0 x2 x3 x4 x5 x6 x7 x8)
    (val_main_v88 (F := Ideal) x0 x2 x3 x4 x5 x6 x7 x8 x9 x10 x11 x12) r q rfl).trans ?_
  unfold Cert.NodeNet.packed
  by_cases h3 : q.val < 3
  · rw [dif_pos h3, dif_pos h3]
    exact pos_apply x0 x2 x3 x4 x5 x6 x7 x8 x9 x10 x11 x12 r _
  · rw [dif_neg h3, dif_neg h3]
    by_cases h67 : q.val < 67
    · rw [dif_pos h67, dif_pos (show q.val < 3 + 64 from h67)]
      exact feats_apply x0 x2 x3 x4 x5 x6 x7 x8 x9 x10 x11 x12 r _
    · rw [dif_neg h67, dif_neg (show ¬ q.val < 3 + 64 from h67)]
      exact prob_apply x0 x2 x3 x4 x5 x6 x7 x8 x9 x10 x11 x12 r _

end Layers

/-- The reference's result at `(r, q)` is the output row of node `r`, over the stages of the neighbour means
    (`val_main_v56`) and the candidate flags (`val_main_v30`). -/
theorem result_apply (x0 : S100000x64.Idx → EReal) (x1 : S100000x4.Idx → EReal) (x2 : (⟨S2x1600000, .i32⟩ : BufTy).Contents (Elt Ideal))
    (x3 : S128x128.Idx → EReal) (x4 : S128.Idx → EReal) (x5 : S128x64.Idx → EReal) (x6 : S64.Idx → EReal)
    (x7 : S64x67.Idx → EReal) (x8 : S67.Idx → EReal) (x9 : S64x32.Idx → EReal) (x10 : S32.Idx → EReal)
    (x11 : S32x1.Idx → EReal) (x12 : S1.Idx → EReal) (r : Fin 100000) (q : Fin 68) :
    val_main_v92 (F := Ideal) x0 x1 x2 x3 x4 x5 x6 x7 x8 x9 x10 x11 x12 (ix2 r q)
      = Cert.NodeNet.outRow (rparams x3 x4 x5 x6 x7 x8 x9 x10 x11 x12)
          (fun k => x0 (ix2 r k)) (fun k => val_main_v56 (F := Ideal) x0 x2 (ix2 r k))
          (val_main_v30 (F := Ideal) x1 x2 (ix1 r)) q := by
  have e : idx_main_v90 (idx_main_v91 (ix2 r q)) = ix1 r := funext fun a => Fin.ext (by
    match a with
    | ⟨0, _⟩ => rfl)
  rw [val_main_v92_apply, val_main_v91_apply, val_main_v90_apply, e, packed_apply x0 x2 x3 x4 x5 x6 x7 x8 x9 x10 x11 x12 r q]
  rfl

end Cert.ReferenceIdeal.Row

end
-- ==== Proof.HostPrefix.lean ====
/-
  What the kernel's program computes on the host before its one kernel region, read against the
  reference: the neighbour means and the candidate flags are the very stages the reference computes
  (the same operations on the same arguments), the biases are their vectors laid out as one-row blocks,
  and the two halves of the last generator layer are its first three and its remaining 64 columns.
-/
import proofs.«144319_j85856396247142_1_alg».proof.Proof.Gen.KernelIdeal.Frame
import proofs.«144319_j85856396247142_1_alg».proof.Proof.RefReadPatched
import Idealize.ShloMosaic.Lib.ValueIdx
import Idealize.ShloMosaic.Lib.Pipeline.Value
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- A one-row block laid out from a vector reads the vector's entry at the column. -/
theorem shapeCast_row {n : Nat} (x : (⟨1, ![n]⟩ : Shape).Idx → EReal) (h : (⟨1, ![n]⟩ : Shape).ShapeCasts ⟨2, ![1, n]⟩)
    (j : Fin n) : shapeCast (⟨2, ![1, n]⟩ : Shape) x h (ix2 0 j) = x (ix1 j) :=
  shapeCast_apply x h (ix2 0 j) (ix1 j)
    (by rewrite [Shape.rowMajor_val_two, Shape.rowMajor_val_one]; show j.val = 0 * n + j.val; omega)

section AnyFloats

variable {F : FTy → Type} [FloatOps F] (mF : (ℓ : Loc nD τ sig) → Buf (Elt F) ℓ)

set_option maxHeartbeats 4000000 in
/-- Over any float family: the two programs compute the neighbour means by the same operations on the same
    arguments (the edge lists' two rows, the degree as a scatter of ones, the two gather-and-scatter sums,
    the quotient by the degree clamped at one), so the kernel's buffer is the reference's stage. -/
theorem nmean_eqF (c : Dev nD) :
    (V mF c main_v57 : S100000x64.Idx → Elt F .f32)
      = Cert.ReferenceIdeal.ReadP.val_main_v56 (F := F) (mF ((c.tc : Thread nD τ).loc main_arg0)) (mF ((c.tc : Thread nD τ).loc main_arg2)) := by
  dsimp only [Gen.V, Gen.hostOps0]; after_results_simp
  rfl

set_option maxHeartbeats 4000000 in
/-- Over any float family: the candidate flags, here a one-column array, are the reference's flag vector
    (softmax's first column above one half, and a positive degree) laid out as a column. -/
theorem mask_colF (c : Dev nD) :
    (V mF c main_v31 : S100000x1.Idx → Elt F .f32)
      = broadcastInDim S100000x1 ![0] bcast_S100000_S100000x1_0
          (Cert.ReferenceIdeal.ReadP.val_main_v30 (F := F) (mF ((c.tc : Thread nD τ).loc main_arg1)) (mF ((c.tc : Thread nD τ).loc main_arg2))) := by
  dsimp only [Gen.V, Gen.hostOps0]; after_results_simp
  rfl

/-- The column read at row `r` is the vector's entry `r`. -/
theorem mask_eqF (c : Dev nD) (r : Fin 100000) :
    (V mF c main_v31 : S100000x1.Idx → Elt F .f32) (ix2 r 0)
      = Cert.ReferenceIdeal.ReadP.val_main_v30 (F := F) (mF ((c.tc : Thread nD τ).loc main_arg1)) (mF ((c.tc : Thread nD τ).loc main_arg2)) (ix1 r) := by
  rw [mask_colF mF c]
  exact broadcastInDim_apply _ bcast_S100000_S100000x1_0 _ (ix2 r 0) (ix1 r) (fun a => match a with
    | ⟨0, _⟩ => by show r.val = if (100000 : Nat) = 1 then 0 else r.val; rw [if_neg (by decide)])

end AnyFloats

/-- The neighbour means the region finds are the reference's stage of the same arguments. -/
theorem nmean_eq (c : Dev nD) :
    (V m c main_v57 : S100000x64.Idx → EReal)
      = Cert.ReferenceIdeal.ReadP.val_main_v56 (F := Ideal) (m ((c.tc : Thread nD τ).loc main_arg0)) (m ((c.tc : Thread nD τ).loc main_arg2)) := by
  exact nmean_eqF (F := Ideal) m c

/-- The candidate flag of node `r` (a one-column array here) is the reference's flag of node `r`. -/
theorem mask_eq (c : Dev nD) (r : Fin 100000) :
    (V m c main_v31 : S100000x1.Idx → EReal) (ix2 r 0)
      = Cert.ReferenceIdeal.ReadP.val_main_v30 (F := Ideal) (m ((c.tc : Thread nD τ).loc main_arg1)) (m ((c.tc : Thread nD τ).loc main_arg2)) (ix1 r) := by
  exact mask_eqF (F := Ideal) m c r

set_option maxHeartbeats 4000000 in
theorem b1_eq (c : Dev nD) (j : Fin 128) :
    (V m c main_v62 : S1x128.Idx → EReal) (ix2 0 j) = (m ((c.tc : Thread nD τ).loc main_arg4) : S128.Idx → EReal) (ix1 j) := by
  have e : (V m c main_v62 : S1x128.Idx → EReal)
      = shapeCast S1x128 (m ((c.tc : Thread nD τ).loc main_arg4) : S128.Idx → EReal) shapeCasts_S128_S1x128 := by
    dsimp only [Gen.V, Gen.hostOps0]; after_results_simp <;> rfl
  rw [e]
  exact shapeCast_row _ shapeCasts_S128_S1x128 j

set_option maxHeartbeats 4000000 in
theorem b2_eq (c : Dev nD) (j : Fin 64) :
    (V m c main_v63 : S1x64.Idx → EReal) (ix2 0 j) = (m ((c.tc : Thread nD τ).loc main_arg6) : S64.Idx → EReal) (ix1 j) := by
  have e : (V m c main_v63 : S1x64.Idx → EReal)
      = shapeCast S1x64 (m ((c.tc : Thread nD τ).loc main_arg6) : S64.Idx → EReal) shapeCasts_S64_S1x64 := by
    dsimp only [Gen.V, Gen.hostOps0]; after_results_simp <;> rfl
  rw [e]
  exact shapeCast_row _ shapeCasts_S64_S1x64 j

set_option maxHeartbeats 4000000 in
theorem W3p_eq (c : Dev nD) (k : Fin 64) (j : Fin 3) :
    (V m c main_v58 : S64x3.Idx → EReal) (ix2 k j)
      = (m ((c.tc : Thread nD τ).loc main_arg7) : S64x67.Idx → EReal) (ix2 k ⟨j.val, by have := j.isLt; omega⟩) := by
  have e : (V m c main_v58 : S64x3.Idx → EReal)
      = extractStridedSlice S64x3 ![0, 0] (m ((c.tc : Thread nD τ).loc main_arg7) : S64x67.Idx → EReal) slices_S64x67_S64x3_0_0 := by
    dsimp only [Gen.V, Gen.hostOps0]; after_results_simp <;> rfl
  rw [e]
  exact extractStridedSlice_apply ![0, 0] _ slices_S64x67_S64x3_0_0 (ix2 k j) (ix2 k ⟨j.val, by have := j.isLt; omega⟩)
    (fun a => match a with
      | ⟨0, _⟩ => by show k.val = 0 + k.val; omega
      | ⟨1, _⟩ => by show j.val = 0 + j.val; omega)

set_option maxHeartbeats 4000000 in
theorem W3f_eq (c : Dev nD) (k : Fin 64) (j : Fin 64) :
    (V m c main_v59 : S64x64.Idx → EReal) (ix2 k j)
      = (m ((c.tc : Thread nD τ).loc main_arg7) : S64x67.Idx → EReal) (ix2 k ⟨j.val + 3, by have := j.isLt; omega⟩) := by
  have e : (V m c main_v59 : S64x64.Idx → EReal)
      = extractStridedSlice S64x64 ![0, 3] (m ((c.tc : Thread nD τ).loc main_arg7) : S64x67.Idx → EReal) slices_S64x67_S64x64_0_3 := by
    dsimp only [Gen.V, Gen.hostOps0]; after_results_simp <;> rfl
  rw [e]
  exact extractStridedSlice_apply ![0, 3] _ slices_S64x67_S64x64_0_3 (ix2 k j) (ix2 k ⟨j.val + 3, by have := j.isLt; omega⟩)
    (fun a => match a with
      | ⟨0, _⟩ => by show k.val = 0 + k.val; omega
      | ⟨1, _⟩ => by show j.val + 3 = 3 + j.val; omega)

set_option maxHeartbeats 4000000 in
theorem b3p_eq (c : Dev nD) (j : Fin 3) :
    (V m c main_v64 : S1x3.Idx → EReal) (ix2 0 j)
      = (m ((c.tc : Thread nD τ).loc main_arg8) : S67.Idx → EReal) (ix1 ⟨j.val, by have := j.isLt; omega⟩) := by
  have e : (V m c main_v64 : S1x3.Idx → EReal)
      = shapeCast S1x3 (extractStridedSlice S3 ![0] (m ((c.tc : Thread nD τ).loc main_arg8) : S67.Idx → EReal) slices_S67_S3_0)
          shapeCasts_S3_S1x3 := by
    dsimp only [Gen.V, Gen.hostOps0]; after_results_simp <;> rfl
  rw [e, shapeCast_row _ shapeCasts_S3_S1x3 j]
  exact extractStridedSlice_apply ![0] _ slices_S67_S3_0 (ix1 j) (ix1 ⟨j.val, by have := j.isLt; omega⟩)
    (fun a => match a with
      | ⟨0, _⟩ => by show j.val = 0 + j.val; omega)

set_option maxHeartbeats 4000000 in
theorem b3f_eq (c : Dev nD) (j : Fin 64) :
    (V m c main_v65 : S1x64.Idx → EReal) (ix2 0 j)
      = (m ((c.tc : Thread nD τ).loc main_arg8) : S67.Idx → EReal) (ix1 ⟨j.val + 3, by have := j.isLt; omega⟩) := by
  have e : (V m c main_v65 : S1x64.Idx → EReal)
      = shapeCast S1x64 (extractStridedSlice S64 ![3] (m ((c.tc : Thread nD τ).loc main_arg8) : S67.Idx → EReal) slices_S67_S64_3)
          shapeCasts_S64_S1x64 := by
    dsimp only [Gen.V, Gen.hostOps0]; after_results_simp <;> rfl
  rw [e, shapeCast_row _ shapeCasts_S64_S1x64 j]
  exact extractStridedSlice_apply ![3] _ slices_S67_S64_3 (ix1 j) (ix1 ⟨j.val + 3, by have := j.isLt; omega⟩)
    (fun a => match a with
      | ⟨0, _⟩ => by show j.val + 3 = 3 + j.val; omega)

set_option maxHeartbeats 4000000 in
theorem pb1_eq (c : Dev nD) (j : Fin 32) :
    (V m c main_v66 : S1x32.Idx → EReal) (ix2 0 j) = (m ((c.tc : Thread nD τ).loc main_arg10) : S32.Idx → EReal) (ix1 j) := by
  have e : (V m c main_v66 : S1x32.Idx → EReal)
      = shapeCast S1x32 (m ((c.tc : Thread nD τ).loc main_arg10) : S32.Idx → EReal) shapeCasts_S32_S1x32 := by
    dsimp only [Gen.V, Gen.hostOps0]; after_results_simp <;> rfl
  rw [e]
  exact shapeCast_row _ shapeCasts_S32_S1x32 j

set_option maxHeartbeats 4000000 in
theorem pb2_eq (c : Dev nD) (j : Fin 1) :
    (V m c main_v67 : S1x1.Idx → EReal) (ix2 0 j) = (m ((c.tc : Thread nD τ).loc main_arg12) : S1.Idx → EReal) (ix1 j) := by
  have e : (V m c main_v67 : S1x1.Idx → EReal)
      = shapeCast S1x1 (m ((c.tc : Thread nD τ).loc main_arg12) : S1.Idx → EReal) shapeCasts_S1_S1x1 := by
    dsimp only [Gen.V, Gen.hostOps0]; after_results_simp <;> rfl
  rw [e]
  exact shapeCast_row _ shapeCasts_S1_S1x1 j

end Cert.KernelIdeal.Prefix

end
-- ==== Proof.Bridge.lean ====
/-
  The two results are one function. At node `r` and column `q` the kernel program's result array holds the
  network's output row for that node over the arrays its kernel region finds; the reference's result is the
  same output row over its own stages. The feature rows are the same argument; the neighbour means and the
  flags are the same host computations; the biases and the two halves of the last generator layer are the
  same entries of the same arguments, laid out differently.
-/
import proofs.«144319_j85856396247142_1_alg».proof.Proof.KernelValue
import proofs.«144319_j85856396247142_1_alg».proof.Proof.RefRow
import proofs.«144319_j85856396247142_1_alg».proof.Proof.HostPrefix

set_option maxRecDepth 16384

noncomputable section

namespace Cert.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The parameters the kernel region finds are the reference's, entry by entry. -/
theorem params_agree (c : Dev nD) :
    Cert.KernelIdeal.Whole.params m c
      = Cert.ReferenceIdeal.Row.rparams (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  unfold Cert.KernelIdeal.Whole.params Cert.KernelIdeal.Row.kparams Cert.ReferenceIdeal.Row.rparams
  rw [Cert.NodeNet.Params.mk.injEq]
  exact ⟨funext fun k => funext fun j => congrFun (V_main_arg3 m c) (ix2 k j),
    funext fun j => Cert.KernelIdeal.Prefix.b1_eq m c j,
    funext fun k => funext fun j => congrFun (V_main_arg5 m c) (ix2 k j),
    funext fun j => Cert.KernelIdeal.Prefix.b2_eq m c j,
    funext fun k => funext fun j => Cert.KernelIdeal.Prefix.W3p_eq m c k j,
    funext fun j => Cert.KernelIdeal.Prefix.b3p_eq m c j,
    funext fun k => funext fun j => Cert.KernelIdeal.Prefix.W3f_eq m c k j,
    funext fun j => Cert.KernelIdeal.Prefix.b3f_eq m c j,
    funext fun k => funext fun j => congrFun (V_main_arg9 m c) (ix2 k j),
    funext fun j => Cert.KernelIdeal.Prefix.pb1_eq m c j,
    funext fun k => funext fun j => congrFun (V_main_arg11 m c) (ix2 k j),
    funext fun j => Cert.KernelIdeal.Prefix.pb2_eq m c j⟩

/-- The reference's result of the kernel program's arguments is the kernel program's result. -/
theorem results_agree (c : Dev nD) :
    Cert.ReferenceIdeal.ReadP.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.KernelIdeal.Whole.result m c := by
  funext i
  obtain ⟨r, q, rfl⟩ : ∃ (r : Fin 100000) (q : Fin 68), i = ix2 r q := ⟨i 0, i 1, eq_ix2 i⟩
  rw [Cert.ReferenceIdeal.Row.result_apply]
  show _ = Cert.KernelIdeal.Whole.nodeRow m c r q
  unfold Cert.KernelIdeal.Whole.nodeRow
  rw [params_agree m c, Cert.KernelIdeal.Prefix.mask_eq m c r, Cert.KernelIdeal.Prefix.nmean_eq m c, V_main_arg0]

end Cert.Bridge

end
-- ==== Proof.lean ====
/-
  The certificate of the node network kernel against its reference.

  Both programs first compute, on the host and by the same operations, every node's degree, its candidate flag
  (first softmax class above one half and a positive degree) and the mean of its neighbours' features. The
  kernel program then runs the three generator layers and the two predictor layers on blocks of 4000 nodes
  inside one kernel region, the last generator layer split beforehand into its three position columns and its 64
  feature columns; the reference runs the same layers on all 100000 nodes at once and slices the columns
  afterwards. Over the extended reals each layer is the same sum on both sides (a change of float format is the
  identity, a matrix product into a zero accumulator is the host's product, the logistic is 1 / (1 + exp (-s)) on
  both sides), so the two results agree entry by entry with no appeal to finiteness:
    Spec.lean         the network as one function of a node's row;
    KernelRow.lean    the kernel body's stored value at a block entry is that function of the block row;
    KernelValue.lean  the 25 blocks tile the result, so the result array is that function of every node;
    RefRow.lean       the reference's result at an entry is that function of the node's row;
    HostPrefix.lean   the arrays the kernel region finds are the reference's stages and arguments;
    Bridge.lean       hence the two results are equal.
  The three frames are the generated runs; the idealization rewrote nothing, so `preserves` is trivial.
-/
import proofs.«144319_j85856396247142_1_alg».proof.Defs
import proofs.«144319_j85856396247142_1_alg».proof.Proof.Gen.Kernel
import proofs.«144319_j85856396247142_1_alg».proof.Proof.Gen.Kernel.Skeleton
import proofs.«144319_j85856396247142_1_alg».proof.Proof.Gen.Kernel.Launch
import proofs.«144319_j85856396247142_1_alg».proof.Proof.Gen.Kernel.Points
import proofs.«144319_j85856396247142_1_alg».proof.Proof.Gen.Kernel.Frame
import proofs.«144319_j85856396247142_1_alg».proof.Proof.Gen.KernelIdeal
import proofs.«144319_j85856396247142_1_alg».proof.Proof.Gen.KernelIdeal.Skeleton
import proofs.«144319_j85856396247142_1_alg».proof.Proof.Gen.KernelIdeal.Launch
import proofs.«144319_j85856396247142_1_alg».proof.Proof.Gen.KernelIdeal.Points
import proofs.«144319_j85856396247142_1_alg».proof.Proof.Gen.KernelIdeal.Frame
import proofs.«144319_j85856396247142_1_alg».proof.Proof.Gen.ReferenceIdeal
import proofs.«144319_j85856396247142_1_alg».proof.Proof.Gen.Pre_finite_inputs
import proofs.«144319_j85856396247142_1_alg».proof.Proof.Gen.KernelIdeal.Value
import proofs.«144319_j85856396247142_1_alg».proof.Proof.RefRunPatched
import proofs.«144319_j85856396247142_1_alg».proof.Proof.RefReadPatched
import proofs.«144319_j85856396247142_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the thirteen arguments, both programs end with every node's output row. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v92_eq, h0, h1, h2, h3, h4, h5, h6, h7, h8, h9, h10, h11, h12]
  exact Cert.Bridge.results_agree m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
